-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x9 : Shape := ⟨2, ![1048576, 9]⟩
abbrev S9x64 : Shape := ⟨2, ![9, 64]⟩
abbrev S64 : Shape := ⟨1, ![64]⟩
abbrev S_ : Shape := ⟨0, ![]⟩

class Facts : Prop where
  bcast_S_S1048576x9 : S_.BroadcastsInDim S1048576x9 (![] : Fin 0 → Fin S1048576x9.rank)
  reducesTo_S1048576x9_S_d0_1 : S1048576x9.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S1048576x9 .f32) (main_arg1 : FVec F S9x64 .f32) (main_arg2 : FVec F S64 .f32) (main_arg3 : FVec F S64 .f32) : IVec S_ 1 :=
  let main_v0 : FVec F S1048576x9 .f32 := Host.absf main_arg0
  let main_cst : FVec F S_ .f32 := constant S_ .f32 0x7F800000#32
  let main_v1 : FVec F S1048576x9 .f32 := broadcastInDim S1048576x9 ![] bcast_S_S1048576x9 main_cst
  let main_v2 : IVec S1048576x9 1 := cmpf .olt main_v0 main_v1
  let main_c : IVec S_ 1 := constantI S_ 1 1#1
  let main_v3 : IVec S_ 1 := (fun x v => Host.reduce IntOp.andi x v reducesTo_S1048576x9_S_d0_1 h_S_) main_v2 main_c
  let main_v4 : FVec F S9x64 .f32 := Host.absf main_arg1
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1048576x9 : Shape := ⟨2, ![1048576, 9]⟩
abbrev S9x64 : Shape := ⟨2, ![9, 64]⟩
abbrev S64 : Shape := ⟨1, ![64]⟩
abbrev S131072x8x9 : Shape := ⟨3, ![131072, 8, 9]⟩
abbrev S1x64 : Shape := ⟨2, ![1, 64]⟩
abbrev S2x64 : Shape := ⟨2, ![2, 64]⟩
abbrev S1048576x64 : Shape := ⟨2, ![1048576, 64]⟩
abbrev S4096x8x9 : Shape := ⟨3, ![4096, 8, 9]⟩
abbrev S32768x9 : Shape := ⟨2, ![32768, 9]⟩
abbrev S32768x64 : Shape := ⟨2, ![32768, 64]⟩
abbrev S2048x8x9 : Shape := ⟨3, ![2048, 8, 9]⟩
abbrev S16384x64 : Shape := ⟨2, ![16384, 64]⟩
abbrev S16384x9 : Shape := ⟨2, ![16384, 9]⟩

abbrev nBuf : Space → Nat
  | .hbm => 10
  | .vmem => 12
  | .smem => 0
  | _ => 0

abbrev bufTy : (tb : Table) → Fin (tcTables nBuf tb) → BufTy
  | .hbm, ⟨0, _⟩ => ⟨S1048576x9, .f32⟩
  | .hbm, ⟨1, _⟩ => ⟨S9x64, .f32⟩
  | .hbm, ⟨2, _⟩ => ⟨S64, .f32⟩
  | .hbm, ⟨3, _⟩ => ⟨S64, .f32⟩
  | .hbm, ⟨4, _⟩ => ⟨S131072x8x9, .f32⟩
  | .hbm, ⟨5, _⟩ => ⟨S9x64, .bf16⟩
  | .hbm, ⟨6, _⟩ => ⟨S1x64, .f32⟩
  | .hbm, ⟨7, _⟩ => ⟨S1x64, .f32⟩
  | .hbm, ⟨8, _⟩ => ⟨S2x64, .f32⟩
  | .hbm, ⟨9, _⟩ => ⟨S1048576x64, .f32⟩
  | .local _ .vmem, ⟨0, _⟩ => ⟨S4096x8x9, .f32⟩
  | .local _ .vmem, ⟨1, _⟩ => ⟨S4096x8x9, .f32⟩
  | .local _ .vmem, ⟨2, _⟩ => ⟨S9x64, .bf16⟩
  | .local _ .vmem, ⟨3, _⟩ => ⟨S2x64, .f32⟩
  | .local _ .vmem, ⟨4, _⟩ => ⟨S2x64, .f32⟩
  | .local _ .vmem, ⟨5, _⟩ => ⟨S2048x8x9, .f32⟩
  | .local _ .vmem, ⟨6, _⟩ => ⟨S2048x8x9, .f32⟩
  | .local _ .vmem, ⟨7, _⟩ => ⟨S9x64, .bf16⟩
  | .local _ .vmem, ⟨8, _⟩ => ⟨S1x64, .f32⟩
  | .local _ .vmem, ⟨9, _⟩ => ⟨S1x64, .f32⟩
  | .local _ .vmem, ⟨10, _⟩ => ⟨S16384x64, .f32⟩
  | .local _ .vmem, ⟨11, _⟩ => ⟨S16384x64, .f32⟩
  | _, _ => ⟨S1048576x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_6 : BitVec 32 := 0#32
  let v15 : BitVec 1 := Scalar.cmpi .ne v14 c0_i32_6
  v15

def k0_cond2 (i : grid0.Coords) : BitVec 1 :=
  let arg0 : BitVec 32 := BitVec.ofNat 32 (i 0).val
  let c0_i32_7 : BitVec 32 := 0#32
  let v16 : BitVec 1 := Scalar.cmpi .sgt arg0 c0_i32_7
  let v17 : BitVec 32 := Scalar.extui v16
  let c0_i32_8 : BitVec 32 := 0#32
  let v18 : BitVec 1 := Scalar.cmpi .ne v17 c0_i32_8
  v18

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x8x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x8x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16384x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1048576x9_S131072x8x9 : S1048576x9.ShapeCasts S131072x8x9
  bitsLt_bf16_f32 : FTy.bits .bf16 < FTy.bits .f32
  shapeCasts_S64_S1x64 : S64.ShapeCasts S1x64
  inb_S4096x8x9_S4096x8x9_0_0_0 : ∀ a, (![0, 0, 0] : Fin 3 → Nat) a + S4096x8x9.size a ≤ S4096x8x9.size a
  h_S4096x8x9 : 0 < S4096x8x9.numel
  shapeCasts_S4096x8x9_S4096x8x9 : S4096x8x9.ShapeCasts S4096x8x9
  shapeCasts_S4096x8x9_S32768x9 : S4096x8x9.ShapeCasts S32768x9
  inb_S9x64_S9x64_0_0 : ∀ a, (![0, 0] : Fin 2 → Nat) a + S9x64.size a ≤ S9x64.size a
  h_S9x64 : 0 < S9x64.numel
  shapeCasts_S9x64_S9x64 : S9x64.ShapeCasts S9x64
  reduces_S32768x64_S64 : S32768x64.Reduces [0] S64
  concatenates_S1x64_S1x64_S2x64_d0 : Shape.Concatenates [S1x64, S1x64] S2x64 0
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S2x64_S1x64_0_0 : ∀ a, (![0, 0] : Fin 2 → Nat) a + S1x64.size a ≤ S2x64.size a
  h_S1x64 : 0 < S1x64.numel
  shapeCasts_S1x64_S1x64 : S1x64.ShapeCasts S1x64
  inb_S2x64_S1x64_1_0 : ∀ a, (![1, 0] : Fin 2 → Nat) a + S1x64.size a ≤ S2x64.size a
  inb_S1x64_S1x64_0_0 : ∀ a, (![0, 0] : Fin 2 → Nat) a + S1x64.size a ≤ S1x64.size a
  inb_S2048x8x9_S2048x8x9_0_0_0 : ∀ a, (![0, 0, 0] : Fin 3 → Nat) a + S2048x8x9.size a ≤ S2048x8x9.size a
  h_S2048x8x9 : 0 < S2048x8x9.numel
  shapeCasts_S2048x8x9_S2048x8x9 : S2048x8x9.ShapeCasts S2048x8x9
  shapeCasts_S2048x8x9_S16384x9 : S2048x8x9.ShapeCasts S16384x9
  broadcasts_S1x64_S16384x64 : S1x64.Broadcasts S16384x64
  inb_S16384x64_S16384x64_0_0 : ∀ a, (![0, 0] : Fin 2 → Nat) a + S16384x64.size a ≤ S16384x64.size a
  h_S16384x64 : 0 < S16384x64.numel
  dot_S32768x9_S9x64_S32768x64_1_0_0_1_n_n_wf : DotDims.WF S32768x9 S9x64 S32768x64 [1] [0] [0] [1] [] []
  dot_S16384x9_S9x64_S16384x64_1_0_0_1_n_n_wf : DotDims.WF S16384x9 S9x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8x9.size a ≤ S131072x8x9.size a
  hwx0_0 : ∀ i : grid0.Coords, EltTy.bits .f32 = 32 ∨ (Rect.block (s := S131072x8x9) S4096x8x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .bf16 = 32 ∨ (Rect.block (s := S9x64) S9x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x64.size a ≤ S2x64.size a
  hwx1_0 : ∀ i : grid1.Coords, EltTy.bits .f32 = 32 ∨ (Rect.block (s := S2x64) S2x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x8x9.size a ≤ S131072x8x9.size a
  hwx1_1 : ∀ i : grid1.Coords, EltTy.bits .f32 = 32 ∨ (Rect.block (s := S131072x8x9) S2048x8x9.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x64.size a ≤ S9x64.size a
  hwx1_2 : ∀ i : grid1.Coords, EltTy.bits .bf16 = 32 ∨ (Rect.block (s := S9x64) S9x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16384x64.size a ≤ S1048576x64.size a
  hwx1_5 : ∀ i : grid1.Coords, EltTy.bits .f32 = 32 ∨ (Rect.block (s := S1048576x64) S16384x64.size (cc1_transform_5 i) (hinb1_5 i)).WholeWords (EltTy.packing .f32)

variable [Facts₀]

def dot_S32768x9_S9x64_S32768x64_1_0_0_1_n_n : DotDims S32768x9 S9x64 S32768x64 where
  lhsContracting := [1]
  rhsContracting := [0]
  lhsNonContracting := [0]
  rhsNonContracting := [1]
  lhsBatch := []
  rhsBatch := []
  wf := dot_S32768x9_S9x64_S32768x64_1_0_0_1_n_n_wf
def dot_S16384x9_S9x64_S16384x64_1_0_0_1_n_n : DotDims S16384x9 S9x64 S16384x64 where
  lhsContracting := [1]
  rhsContracting := [0]
  lhsNonContracting := [0]
  rhsNonContracting := [1]
  lhsBatch := []
  rhsBatch := []
  wf := dot_S16384x9_S9x64_S16384x64_1_0_0_1_n_n_wf

abbrev win0_0 : Pipeline.Window sig grid0 :=
  Pipeline.Window.ofSpec (Memref.whole main_call0_v0) S4096x8x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S2x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_call0_v4) S2x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S2048x8x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S9x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S16384x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1048576x9 : Shape := ⟨2, ![1048576, 9]⟩
abbrev S9x64 : Shape := ⟨2, ![9, 64]⟩
abbrev S64 : Shape := ⟨1, ![64]⟩
abbrev S1048576x64 : Shape := ⟨2, ![1048576, 64]⟩
abbrev S_ : Shape := ⟨0, ![]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S1048576x9, .f32⟩
  | .hbm, ⟨1, _⟩ => ⟨S9x64, .f32⟩
  | .hbm, ⟨2, _⟩ => ⟨S64, .f32⟩
  | .hbm, ⟨3, _⟩ => ⟨S64, .f32⟩
  | .hbm, ⟨4, _⟩ => ⟨S1048576x64, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .i32⟩
  | .hbm, ⟨11, _⟩ => ⟨S_, .f32⟩
  | .hbm, ⟨12, _⟩ => ⟨S64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S1048576x64, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S1048576x64, .f32⟩
  | .hbm, ⟨35, _⟩ => ⟨S1048576x64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S1048576x64, .f32⟩
  | .hbm, ⟨42, _⟩ => ⟨S1048576x64, .f32⟩
  | .hbm, ⟨43, _⟩ => ⟨S1x64, .f32⟩
  | .hbm, ⟨44, _⟩ => ⟨S1048576x64, .f32⟩
  | .hbm, ⟨45, _⟩ => ⟨S1048576x64, .f32⟩
  | .hbm, ⟨46, _⟩ => ⟨S1x64, .f32⟩
  | .hbm, ⟨47, _⟩ => ⟨S1048576x64, .f32⟩
  | .hbm, ⟨48, _⟩ => ⟨S1048576x64, .f32⟩
  | .hbm, ⟨49, _⟩ => ⟨S_, .f32⟩
  | .hbm, ⟨50, _⟩ => ⟨S1048576x64, .f32⟩
  | .hbm, ⟨51, _⟩ => ⟨S1048576x64, .f32⟩
  | _, _ => ⟨S1048576x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_cst_3 : Ref sig .tc := ⟨.hbm, 27, rfl⟩
abbrev main_call0_v12 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call1_cst : Ref sig .tc := ⟨.hbm, 49, rfl⟩
abbrev main_call1_v0 : Ref sig .tc := ⟨.hbm, 50, rfl⟩
abbrev main_v20 : Ref sig .tc := ⟨.hbm, 51, rfl⟩

abbrev nD : Nat := 1
abbrev τ : Topo := Topo.v7x

variable {F : FTy → Type} [FloatOps F]

class Facts₀ : Prop where
  reducesTo_S1048576x64_S64_d0 : S1048576x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  dot_S1048576x9_S9x64_S1048576x64_1_0_0_1_n_n_wf : DotDims.WF S1048576x9 S9x64 S1048576x64 [1] [0] [0] [1] [] []

variable [Facts₀]

def dot_S1048576x9_S9x64_S1048576x64_1_0_0_1_n_n : DotDims S1048576x9 S9x64 S1048576x64 where
  lhsContracting := [1]
  rhsContracting := [0]
  lhsNonContracting := [0]
  rhsNonContracting := [1]
  lhsBatch := []
  rhsBatch := []
  wf := dot_S1048576x9_S9x64_S1048576x64_1_0_0_1_n_n_wf

class Facts : Prop extends Facts₀ where

variable [Facts]
-- ==== Proof.BitsRegion0Runs.lean ====
/-
  The first pass (32 grid points): per channel, the running sums of h = x·W and of h·h.

  Point 0 writes its block's two sums into the 2×64 accumulator; every later point adds its block's two sums to
  what the point before left there. The accumulator's staging buffer is written back once, after the last point.
  Here: what that buffer holds after each point (a recursion on the point), and the proof that the kernel body,
  run at any point on whole staging buffers, leaves exactly that and its two inputs untouched. Everything is
  stated at a parameter V, the contents of the core's buffers when this pass is entered.
-/
import proofs.«130351_g67611375173654_cont_9to1c4b_816_22_alg».proof.Proof.Gen.Kernel.Launch
import proofs.«130351_g67611375173654_cont_9to1c4b_816_22_alg».proof.Proof.Gen.Kernel.Skeleton
import proofs.«130351_g67611375173654_cont_9to1c4b_816_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block (window 0) is in its staging buffer at every point, whatever proof data names it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1, one constant block) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, over the grid -/

/-- "This is the first point" holds at point 0 only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- "This is a later point" holds at every point but 0. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two stores happens at every point: the accumulator is idle nowhere. -/
theorem hlive0_2 : ∀ t : Fin cfg0.N, cfg0.idle 2 (cfg0.grid.coords t) = false :=
  (by decide +kernel : ∀ t : Fin grid0.N, idle0 2 (grid0.coords t) = false)

/-! ## The staging buffers at a point -/

abbrev VO0_2 : View sig .tc .vmem S2x64 .f32 := (Memref.whole cc0_stg2_0 : Memref sig .tc .vmem S2x64 .f32).view
abbrev ms0_0 (t : Fin cfg0.N) : Memref sig .tc .vmem S4096x8x9 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x64 .f32 := win0_2.stage (cfg0.slots t 2)
abbrev hs0_2 (t : Fin cfg0.N) : (ms0_2 t).IsWhole := hstage0_2 ((cfg0.slots t 2).cast nbuf0_2)

/-! ## The body, run once per case -/

set_option maxHeartbeats 1000000 in
/-- At the first point: the two inputs are read, the accumulator (at anything) is overwritten with the block's
    sums. The pieces the accumulator ends with are what the run finds. -/
noncomputable def kernelRun0_A (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : k0_cond1 i = 1#1) (hc2 : ¬k0_cond2 i = 1#1)
    (x0 : Vec F S4096x8x9 .f32) (x1 : Vec F S9x64 .bf16) :
    { L2 : List (View.Piece (Elt F) S2x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0_stats_body i arg1 harg1 arg2 harg2 arg3 harg3) K } := by
  refine ⟨?_, fun E K => ?run⟩
  case run =>
    simp only [cc0_stats_body_eq_skeleton]; unfold cc0_stats_body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- At a later point: the two inputs and the accumulator (at its running contents xo2) are read, the accumulator
    is overwritten with xo2 plus the block's sums. -/
noncomputable def kernelRun0_B (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : ¬k0_cond1 i = 1#1) (hc2 : k0_cond2 i = 1#1)
    (x0 : Vec F S4096x8x9 .f32) (x1 : Vec F S9x64 .bf16) (xo2 : Vec F S2x64 .f32) :
    { L2 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0_stats_body i arg1 harg1 arg2 harg2 arg3 harg3) K } := by
  refine ⟨?_, fun E K => ?run⟩
  case run =>
    simp only [cc0_stats_body_eq_skeleton]; unfold cc0_stats_body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.BitsRegion0.lean ====
/-
  The first pass, continued: the accumulator's contents after each point as a recursion on the point
  (point 0: the block's sums; point n+1: what point n left, plus the block's sums), the pass's proof data, and
  the body obligation at every point.
-/
import proofs.«130351_g67611375173654_cont_9to1c4b_816_22_alg».proof.Proof.Gen.Kernel.Launch
import proofs.«130351_g67611375173654_cont_9to1c4b_816_22_alg».proof.Proof.Gen.Kernel.Skeleton
import proofs.«130351_g67611375173654_cont_9to1c4b_816_22_alg».proof.Proof.Gen.Kernel.Points
import proofs.«130351_g67611375173654_cont_9to1c4b_816_22_alg».proof.Proof.BitsRegion0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator -/

/-- The first point's one store covers the whole 2×64 buffer. -/
theorem cover0_A_2 (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : k0_cond1 i = 1#1) (hc2 : ¬k0_cond2 i = 1#1) (x0 : Vec F S4096x8x9 .f32) (x1 : Vec F S9x64 .bf16) (y : S2x64.Idx) :
    ∃ pc ∈ (kernelRun0_A c i arg1 harg1 arg2 harg2 arg3 harg3 hc1 hc2 x0 x1).1, y ∈ pc.1.set :=
  View.cover_of_tiledL (kernelRun0_A c i arg1 harg1 arg2 harg2 arg3 harg3 hc1 hc2 x0 x1).1 S2x64.size (by sl_kernel_rfl) y

/-- What the first point leaves in the accumulator: its store read back. -/
def out0_A_2 (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : k0_cond1 i = 1#1) (hc2 : ¬k0_cond2 i = 1#1) (x0 : Vec F S4096x8x9 .f32) (x1 : Vec F S9x64 .bf16) : Vec F S2x64 .f32 :=
  VO0_2.read (Elt F) (VO0_2.writes (Elt F) VO0_2.junk (kernelRun0_A c i arg1 harg1 arg2 harg2 arg3 harg3 hc1 hc2 x0 x1).1)

/-- A later point's one store covers the whole 2×64 buffer. -/
theorem cover0_B_2 (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : ¬k0_cond1 i = 1#1) (hc2 : k0_cond2 i = 1#1) (x0 : Vec F S4096x8x9 .f32) (x1 : Vec F S9x64 .bf16) (xo2 : Vec F S2x64 .f32) (y : S2x64.Idx) :
    ∃ pc ∈ (kernelRun0_B c i arg1 harg1 arg2 harg2 arg3 harg3 hc1 hc2 x0 x1 xo2).1, y ∈ pc.1.set :=
  View.cover_of_tiledL (kernelRun0_B c i arg1 harg1 arg2 harg2 arg3 harg3 hc1 hc2 x0 x1 xo2).1 S2x64.size (by sl_kernel_rfl) y

/-- What a later point leaves in the accumulator, over the running contents xo2: its store read back. -/
def out0_B_2 (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : ¬k0_cond1 i = 1#1) (hc2 : k0_cond2 i = 1#1) (x0 : Vec F S4096x8x9 .f32) (x1 : Vec F S9x64 .bf16) (xo2 : Vec F S2x64 .f32) : Vec F S2x64 .f32 :=
  VO0_2.read (Elt F) (VO0_2.writes (Elt F) VO0_2.junk (kernelRun0_B c i arg1 harg1 arg2 harg2 arg3 harg3 hc1 hc2 x0 x1 xo2).1)

/-! ## The accumulation -/

/-- What the accumulator holds after the body at position n: at 0 the first case on the point's blocks; at n+1 the
    later case on the point's blocks over what position n left (the buffer is not written back in between). -/
def outsAt0 (c : Dev nD) : (n : ℕ) → n < cfg0.N → Vec F S2x64 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_1 ⟨0, hn⟩).mpr rfl) (fun h => (hcond0_2 ⟨0, hn⟩).mp h rfl) (iblk0 V c 0 ⟨0, hn⟩) (iblk0 V c 1 ⟨0, hn⟩)
  | n + 1, hn => out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (fun h => Nat.succ_ne_zero n ((hcond0_1 ⟨n + 1, hn⟩).mp h)) ((hcond0_2 ⟨n + 1, hn⟩).mpr (Nat.succ_ne_zero n))
      (iblk0 V c 0 ⟨n + 1, hn⟩) (iblk0 V c 1 ⟨n + 1, hn⟩) (outsAt0 c n (Nat.lt_of_succ_lt hn))

/-- At the first point. -/
theorem outsAt0_A (c : Dev nD) (t : Fin cfg0.N) (h0 : t.val = 0) :
    outsAt0 V c t.val t.isLt = out0_A_2 c (grid0.coords t) (ms0_0 t) (hs0_0 t) (ms0_1 t) (hs0_1 t) (ms0_2 t) (hs0_2 t)
      ((hcond0_1 t).mpr h0) (fun h => (hcond0_2 t).mp h h0) (iblk0 V c 0 t) (iblk0 V c 1 t) := by
  obtain ⟨n, hn⟩ := t
  cases n with
  | zero => exact rfl
  | succ n => exact absurd h0 (Nat.succ_ne_zero n)

/-- At a later point: over what the point before left. -/
theorem outsAt0_B (c : Dev nD) (t : Fin cfg0.N) (h0 : ¬t.val = 0) :
    outsAt0 V c t.val t.isLt = out0_B_2 c (grid0.coords t) (ms0_0 t) (hs0_0 t) (ms0_1 t) (hs0_1 t) (ms0_2 t) (hs0_2 t)
      (fun h => h0 ((hcond0_1 t).mp h)) ((hcond0_2 t).mpr h0) (iblk0 V c 0 t) (iblk0 V c 1 t)
      (outsAt0 V c (t.val - 1) (Nat.lt_of_le_of_lt (Nat.sub_le _ _) t.isLt)) := by
  obtain ⟨n, hn⟩ := t
  cases n with
  | zero => exact absurd rfl h0
  | succ n => exact rfl

/-! ## The proof data -/

/-- The first pass's proof data on core c: the arrays as the pass finds them; after the body at point t the two
    inputs at their blocks and the accumulator at outsAt0; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The idle table of the accumulator's window is false at every coordinate vector of the grid. -/
theorem hlive0_2' : ∀ i : cfg0.grid.Coords, cfg0.idle 2 i = false := by decide +kernel

/-- At a later point the accumulator's staging buffer holds what the body left at the point before: the buffer is
    written back only after the last point. -/
theorem before0_2_B (c : Dev nD) (t : Fin cfg0.N) (h0 : ¬t.val = 0) (d) :
    (dat0 V c).before 2 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    hlive0_2' (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' buffers hold their blocks; the point is the first or a later one; at a later
    one the accumulator holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_1 t).mpr h0) (fun h => (hcond0_2 t).mp h h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_1 t).mp h)) ((hcond0_2 t).mpr h0) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The library's body obligation, at every point (the accumulator's window is live at each). -/
theorem body_obligation0 (c : Dev nD) : BodyObligation (dat0 (F := F) V c) (defs₀ (F := F)) Variants.none () Set.univ := fun t => by
  rw [bigSep_W0, bigSep_W0]
  have hi : idle0 2 (grid0.coords t) = false := hlive0_2 t
  simp only [hi]
  exact sound_body0 V c t

end Cert.Kernel.Hand

end
-- ==== Proof.BitsRegion1Run.lean ====
/-
  The second pass (64 grid points): each point reads the finished 2×64 sums, its 16384 rows of x, the weights,
  gamma and beta, and overwrites its 16384×64 output block with relu(h·scale + bias); the block is written back
  at every point. Here: what the output's staging buffer holds after the body (the body's one store read back),
  the proof that the body leaves that and its five inputs untouched, the proof data and the body obligation —
  all at a parameter V, the contents of the core's buffers when this pass is entered.
-/
import proofs.«130351_g67611375173654_cont_9to1c4b_816_22_alg».proof.Proof.Gen.Kernel.Launch
import proofs.«130351_g67611375173654_cont_9to1c4b_816_22_alg».proof.Proof.Gen.Kernel.Skeleton
import proofs.«130351_g67611375173654_cont_9to1c4b_816_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is in its staging buffer at every point, whatever proof data names it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 is in its staging buffer at every point, whatever proof data names it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 is in its staging buffer at every point, whatever proof data names it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 is in its staging buffer at every point, whatever proof data names it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 is in its staging buffer at every point, whatever proof data names it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers at a point -/

abbrev VO1_5 : View sig .tc .vmem S16384x64 .f32 := (Memref.whole cc1_stg5_0 : Memref sig .tc .vmem S16384x64 .f32).view
abbrev ms1_0 (t : Fin cfg1.N) : Memref sig .tc .vmem S2x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x8x9 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S9x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16384x64 .f32 := win1_5.stage (cfg1.slots t 5)
abbrev hs1_5 (t : Fin cfg1.N) : (ms1_5 t).IsWhole := hstage1_5 ((cfg1.slots t 5).cast nbuf1_5)

/-! ## The body, run once -/

set_option maxHeartbeats 1000000 in
/-- The five inputs are read, the output block (at anything) is overwritten whole. The pieces the output ends with
    are what the run finds. -/
noncomputable def kernelRun1 (c : Dev nD) (i : grid1.Coords)
    (arg1 : Memref sig .tc .vmem S2x64 .f32) (harg1 : arg1.IsWhole) (arg2 : Memref sig .tc .vmem S2048x8x9 .f32) (harg2 : arg2.IsWhole)
    (arg3 : Memref sig .tc .vmem S9x64 .bf16) (harg3 : arg3.IsWhole) (arg4 : Memref sig .tc .vmem S1x64 .f32) (harg4 : arg4.IsWhole)
    (arg5 : Memref sig .tc .vmem S1x64 .f32) (harg5 : arg5.IsWhole) (arg6 : Memref sig .tc .vmem S16384x64 .f32) (harg6 : arg6.IsWhole)
    (x0 : Vec F S2x64 .f32) (x1 : Vec F S2048x8x9 .f32) (x2 : Vec F S9x64 .bf16) (x3 : Vec F S1x64 .f32) (x4 : Vec F S1x64 .f32) :
    { L5 : List (View.Piece (Elt F) S16384x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1_apply_body i arg1 harg1 arg2 harg2 arg3 harg3 arg4 harg4 arg5 harg5 arg6 harg6) K } := by
  refine ⟨?_, fun E K => ?run⟩
  case run =>
    simp only [cc1_apply_body_eq_skeleton]; unfold cc1_apply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Hand

end
-- ==== Proof.BitsRegion1.lean ====
/-
  The second pass, continued: what the output block's staging buffer holds after the body, the pass's proof data,
  and the body obligation at every point.
-/
import proofs.«130351_g67611375173654_cont_9to1c4b_816_22_alg».proof.Proof.Gen.Kernel.Launch
import proofs.«130351_g67611375173654_cont_9to1c4b_816_22_alg».proof.Proof.Gen.Kernel.Skeleton
import proofs.«130351_g67611375173654_cont_9to1c4b_816_22_alg».proof.Proof.Gen.Kernel.Points
import proofs.«130351_g67611375173654_cont_9to1c4b_816_22_alg».proof.Proof.BitsRegion1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's one store covers the whole 16384×64 block. -/
theorem cover1_5 (c : Dev nD) (i : grid1.Coords)
    (arg1 : Memref sig .tc .vmem S2x64 .f32) (harg1 : arg1.IsWhole) (arg2 : Memref sig .tc .vmem S2048x8x9 .f32) (harg2 : arg2.IsWhole)
    (arg3 : Memref sig .tc .vmem S9x64 .bf16) (harg3 : arg3.IsWhole) (arg4 : Memref sig .tc .vmem S1x64 .f32) (harg4 : arg4.IsWhole)
    (arg5 : Memref sig .tc .vmem S1x64 .f32) (harg5 : arg5.IsWhole) (arg6 : Memref sig .tc .vmem S16384x64 .f32) (harg6 : arg6.IsWhole)
    (x0 : Vec F S2x64 .f32) (x1 : Vec F S2048x8x9 .f32) (x2 : Vec F S9x64 .bf16) (x3 : Vec F S1x64 .f32) (x4 : Vec F S1x64 .f32) (y : S16384x64.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S16384x64.size (by sl_kernel_rfl) y

/-- What the body leaves in the output block's staging buffer: its store read back. -/
def out1_5 (c : Dev nD) (i : grid1.Coords)
    (arg1 : Memref sig .tc .vmem S2x64 .f32) (harg1 : arg1.IsWhole) (arg2 : Memref sig .tc .vmem S2048x8x9 .f32) (harg2 : arg2.IsWhole)
    (arg3 : Memref sig .tc .vmem S9x64 .bf16) (harg3 : arg3.IsWhole) (arg4 : Memref sig .tc .vmem S1x64 .f32) (harg4 : arg4.IsWhole)
    (arg5 : Memref sig .tc .vmem S1x64 .f32) (harg5 : arg5.IsWhole) (arg6 : Memref sig .tc .vmem S16384x64 .f32) (harg6 : arg6.IsWhole)
    (x0 : Vec F S2x64 .f32) (x1 : Vec F S2048x8x9 .f32) (x2 : Vec F S9x64 .bf16) (x3 : Vec F S1x64 .f32) (x4 : Vec F S1x64 .f32) : Vec F S16384x64 .f32 :=
  VO1_5.read (Elt F) (VO1_5.writes (Elt F) VO1_5.junk (kernelRun1 c i arg1 harg1 arg2 harg2 arg3 harg3 arg4 harg4 arg5 harg5 arg6 harg6 x0 x1 x2 x3 x4).1)

/-- The output block after the body at point t, from the five input blocks at t. -/
def outAt1 (c : Dev nD) (t : Fin cfg1.N) : Vec F S16384x64 .f32 :=
  out1_5 c (grid1.coords t) (ms1_0 t) (hs1_0 t) (ms1_1 t) (hs1_1 t) (ms1_2 t) (hs1_2 t) (ms1_3 t) (hs1_3 t) (ms1_4 t) (hs1_4 t) (ms1_5 t) (hs1_5 t)
    (iblk1 V c 0 t) (iblk1 V c 1 t) (iblk1 V c 2 t) (iblk1 V c 3 t) (iblk1 V c 4 t)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the five inputs' buffers hold their blocks, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outAt1 out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program as one run: four host operations (three reshapes and the weights' change of format), the first
  pass, the second pass. The contents of the core's buffers are followed boundary by boundary — at launch; after the
  host operations; after the first pass (its arrays at what its write-backs leave, everything else as before); after
  the second pass likewise — and the run ends with EVERY unscoped buffer at the last boundary's contents. From that:
  the four argument arrays end as launched (no operation and no pass writes one), and the result array ends at what
  the second pass's write-backs leave.
-/
import proofs.«130351_g67611375173654_cont_9to1c4b_816_22_alg».proof.Proof.Gen.Kernel.Launch
import proofs.«130351_g67611375173654_cont_9to1c4b_816_22_alg».proof.Proof.Gen.Kernel.Skeleton
import proofs.«130351_g67611375173654_cont_9to1c4b_816_22_alg».proof.Proof.Gen.Kernel.Points
import proofs.«130351_g67611375173654_cont_9to1c4b_816_22_alg».proof.Proof.BitsRegion0
import proofs.«130351_g67611375173654_cont_9to1c4b_816_22_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the four host operations (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pass: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pass: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- A buffer none of the four host operations writes is as launched after them. -/
theorem W1_of_not_written (c : Dev nD) (b : Ref sig .tc)
    (hb : b ≠ main_call0_v0 ∧ b ≠ main_call0_v1 ∧ b ≠ main_call0_v2 ∧ b ≠ main_call0_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl

/-! ## The proof data family and the thread state -/

abbrev adm : (p : Fin 2) → (pcfgs (F := F) p).Adm := fun p => (cfgs p).toPCfg_adm
/-- Each pass's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two passes as segments -/

set_option backward.isDefEq.respectTransparency.types false in
/-- Pass 0 over the thread state: its arrays are split out of the unscoped buffers at entry and put back at the
    contents the pipeline leaves at exit; the generator register rides through the pass's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 over the thread state: its arrays are split out of the unscoped buffers at entry and put back at the
    contents the pipeline leaves at exit; the generator register rides through the pass's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with its result named: the result array ends at what the second pass's write-backs leave, and the four
    argument arrays end as launched. -/
theorem run_named : θ_run defs (onTc (τ := τ) (main (F := F))) ⟨m, fun _ => 0, ρ⟩ (fun r => ∀ c : Dev nD,
      r.2.mem ((c.tc : Thread nD τ).loc main_v0) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.Kernel.Hand

end
-- ==== Proof.IdealRegion0Runs.lean ====
/-
  The first pass (32 grid points): per channel, the running sums of h = x·W and of h·h.

  Point 0 writes its block's two sums into the 2×64 accumulator; every later point adds its block's two sums to
  what the point before left there. The accumulator's staging buffer is written back once, after the last point.
  Here: what that buffer holds after each point (a recursion on the point), and the proof that the kernel body,
  run at any point on whole staging buffers, leaves exactly that and its two inputs untouched. Everything is
  stated at a parameter V, the contents of the core's buffers when this pass is entered.
-/
import proofs.«130351_g67611375173654_cont_9to1c4b_816_22_alg».proof.Proof.Gen.KernelIdeal.Launch
import proofs.«130351_g67611375173654_cont_9to1c4b_816_22_alg».proof.Proof.Gen.KernelIdeal.Skeleton
import proofs.«130351_g67611375173654_cont_9to1c4b_816_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block (window 0) is in its staging buffer at every point, whatever proof data names it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1, one constant block) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, over the grid -/

/-- "This is the first point" holds at point 0 only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- "This is a later point" holds at every point but 0. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two stores happens at every point: the accumulator is idle nowhere. -/
theorem hlive0_2 : ∀ t : Fin cfg0.N, cfg0.idle 2 (cfg0.grid.coords t) = false :=
  (by decide +kernel : ∀ t : Fin grid0.N, idle0 2 (grid0.coords t) = false)

/-! ## The staging buffers at a point -/

abbrev VO0_2 : View sig .tc .vmem S2x64 .f32 := (Memref.whole cc0_stg2_0 : Memref sig .tc .vmem S2x64 .f32).view
abbrev ms0_0 (t : Fin cfg0.N) : Memref sig .tc .vmem S4096x8x9 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x64 .f32 := win0_2.stage (cfg0.slots t 2)
abbrev hs0_2 (t : Fin cfg0.N) : (ms0_2 t).IsWhole := hstage0_2 ((cfg0.slots t 2).cast nbuf0_2)

/-! ## The body, run once per case -/

set_option maxHeartbeats 1000000 in
/-- At the first point: the two inputs are read, the accumulator (at anything) is overwritten with the block's
    sums. The pieces the accumulator ends with are what the run finds. -/
noncomputable def kernelRun0_A (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : k0_cond1 i = 1#1) (hc2 : ¬k0_cond2 i = 1#1)
    (x0 : Vec F S4096x8x9 .f32) (x1 : Vec F S9x64 .bf16) :
    { L2 : List (View.Piece (Elt F) S2x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0_stats_body i arg1 harg1 arg2 harg2 arg3 harg3) K } := by
  refine ⟨?_, fun E K => ?run⟩
  case run =>
    simp only [cc0_stats_body_eq_skeleton]; unfold cc0_stats_body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- At a later point: the two inputs and the accumulator (at its running contents xo2) are read, the accumulator
    is overwritten with xo2 plus the block's sums. -/
noncomputable def kernelRun0_B (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : ¬k0_cond1 i = 1#1) (hc2 : k0_cond2 i = 1#1)
    (x0 : Vec F S4096x8x9 .f32) (x1 : Vec F S9x64 .bf16) (xo2 : Vec F S2x64 .f32) :
    { L2 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0_stats_body i arg1 harg1 arg2 harg2 arg3 harg3) K } := by
  refine ⟨?_, fun E K => ?run⟩
  case run =>
    simp only [cc0_stats_body_eq_skeleton]; unfold cc0_stats_body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.IdealRegion0.lean ====
/-
  The first pass, continued: the accumulator's contents after each point as a recursion on the point
  (point 0: the block's sums; point n+1: what point n left, plus the block's sums), the pass's proof data, and
  the body obligation at every point.
-/
import proofs.«130351_g67611375173654_cont_9to1c4b_816_22_alg».proof.Proof.Gen.KernelIdeal.Launch
import proofs.«130351_g67611375173654_cont_9to1c4b_816_22_alg».proof.Proof.Gen.KernelIdeal.Skeleton
import proofs.«130351_g67611375173654_cont_9to1c4b_816_22_alg».proof.Proof.Gen.KernelIdeal.Points
import proofs.«130351_g67611375173654_cont_9to1c4b_816_22_alg».proof.Proof.IdealRegion0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator -/

/-- The first point's one store covers the whole 2×64 buffer. -/
theorem cover0_A_2 (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : k0_cond1 i = 1#1) (hc2 : ¬k0_cond2 i = 1#1) (x0 : Vec F S4096x8x9 .f32) (x1 : Vec F S9x64 .bf16) (y : S2x64.Idx) :
    ∃ pc ∈ (kernelRun0_A c i arg1 harg1 arg2 harg2 arg3 harg3 hc1 hc2 x0 x1).1, y ∈ pc.1.set :=
  View.cover_of_tiledL (kernelRun0_A c i arg1 harg1 arg2 harg2 arg3 harg3 hc1 hc2 x0 x1).1 S2x64.size (by sl_kernel_rfl) y

/-- What the first point leaves in the accumulator: its store read back. -/
def out0_A_2 (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : k0_cond1 i = 1#1) (hc2 : ¬k0_cond2 i = 1#1) (x0 : Vec F S4096x8x9 .f32) (x1 : Vec F S9x64 .bf16) : Vec F S2x64 .f32 :=
  VO0_2.read (Elt F) (VO0_2.writes (Elt F) VO0_2.junk (kernelRun0_A c i arg1 harg1 arg2 harg2 arg3 harg3 hc1 hc2 x0 x1).1)

/-- A later point's one store covers the whole 2×64 buffer. -/
theorem cover0_B_2 (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : ¬k0_cond1 i = 1#1) (hc2 : k0_cond2 i = 1#1) (x0 : Vec F S4096x8x9 .f32) (x1 : Vec F S9x64 .bf16) (xo2 : Vec F S2x64 .f32) (y : S2x64.Idx) :
    ∃ pc ∈ (kernelRun0_B c i arg1 harg1 arg2 harg2 arg3 harg3 hc1 hc2 x0 x1 xo2).1, y ∈ pc.1.set :=
  View.cover_of_tiledL (kernelRun0_B c i arg1 harg1 arg2 harg2 arg3 harg3 hc1 hc2 x0 x1 xo2).1 S2x64.size (by sl_kernel_rfl) y

/-- What a later point leaves in the accumulator, over the running contents xo2: its store read back. -/
def out0_B_2 (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : ¬k0_cond1 i = 1#1) (hc2 : k0_cond2 i = 1#1) (x0 : Vec F S4096x8x9 .f32) (x1 : Vec F S9x64 .bf16) (xo2 : Vec F S2x64 .f32) : Vec F S2x64 .f32 :=
  VO0_2.read (Elt F) (VO0_2.writes (Elt F) VO0_2.junk (kernelRun0_B c i arg1 harg1 arg2 harg2 arg3 harg3 hc1 hc2 x0 x1 xo2).1)

/-! ## The accumulation -/

/-- What the accumulator holds after the body at position n: at 0 the first case on the point's blocks; at n+1 the
    later case on the point's blocks over what position n left (the buffer is not written back in between). -/
def outsAt0 (c : Dev nD) : (n : ℕ) → n < cfg0.N → Vec F S2x64 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_1 ⟨0, hn⟩).mpr rfl) (fun h => (hcond0_2 ⟨0, hn⟩).mp h rfl) (iblk0 V c 0 ⟨0, hn⟩) (iblk0 V c 1 ⟨0, hn⟩)
  | n + 1, hn => out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (fun h => Nat.succ_ne_zero n ((hcond0_1 ⟨n + 1, hn⟩).mp h)) ((hcond0_2 ⟨n + 1, hn⟩).mpr (Nat.succ_ne_zero n))
      (iblk0 V c 0 ⟨n + 1, hn⟩) (iblk0 V c 1 ⟨n + 1, hn⟩) (outsAt0 c n (Nat.lt_of_succ_lt hn))

/-- At the first point. -/
theorem outsAt0_A (c : Dev nD) (t : Fin cfg0.N) (h0 : t.val = 0) :
    outsAt0 V c t.val t.isLt = out0_A_2 c (grid0.coords t) (ms0_0 t) (hs0_0 t) (ms0_1 t) (hs0_1 t) (ms0_2 t) (hs0_2 t)
      ((hcond0_1 t).mpr h0) (fun h => (hcond0_2 t).mp h h0) (iblk0 V c 0 t) (iblk0 V c 1 t) := by
  obtain ⟨n, hn⟩ := t
  cases n with
  | zero => exact rfl
  | succ n => exact absurd h0 (Nat.succ_ne_zero n)

/-- At a later point: over what the point before left. -/
theorem outsAt0_B (c : Dev nD) (t : Fin cfg0.N) (h0 : ¬t.val = 0) :
    outsAt0 V c t.val t.isLt = out0_B_2 c (grid0.coords t) (ms0_0 t) (hs0_0 t) (ms0_1 t) (hs0_1 t) (ms0_2 t) (hs0_2 t)
      (fun h => h0 ((hcond0_1 t).mp h)) ((hcond0_2 t).mpr h0) (iblk0 V c 0 t) (iblk0 V c 1 t)
      (outsAt0 V c (t.val - 1) (Nat.lt_of_le_of_lt (Nat.sub_le _ _) t.isLt)) := by
  obtain ⟨n, hn⟩ := t
  cases n with
  | zero => exact absurd rfl h0
  | succ n => exact rfl

/-! ## The proof data -/

/-- The first pass's proof data on core c: the arrays as the pass finds them; after the body at point t the two
    inputs at their blocks and the accumulator at outsAt0; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The idle table of the accumulator's window is false at every coordinate vector of the grid. -/
theorem hlive0_2' : ∀ i : cfg0.grid.Coords, cfg0.idle 2 i = false := by decide +kernel

/-- At a later point the accumulator's staging buffer holds what the body left at the point before: the buffer is
    written back only after the last point. -/
theorem before0_2_B (c : Dev nD) (t : Fin cfg0.N) (h0 : ¬t.val = 0) (d) :
    (dat0 V c).before 2 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    hlive0_2' (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' buffers hold their blocks; the point is the first or a later one; at a later
    one the accumulator holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_1 t).mpr h0) (fun h => (hcond0_2 t).mp h h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_1 t).mp h)) ((hcond0_2 t).mpr h0) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The library's body obligation, at every point (the accumulator's window is live at each). -/
theorem body_obligation0 (c : Dev nD) : BodyObligation (dat0 (F := F) V c) (defs₀ (F := F)) Variants.none () Set.univ := fun t => by
  rw [bigSep_W0, bigSep_W0]
  have hi : idle0 2 (grid0.coords t) = false := hlive0_2 t
  simp only [hi]
  exact sound_body0 V c t

end Cert.KernelIdeal.Hand

end
-- ==== Proof.IdealRegion1Run.lean ====
/-
  The second pass (64 grid points): each point reads the finished 2×64 sums, its 16384 rows of x, the weights,
  gamma and beta, and overwrites its 16384×64 output block with relu(h·scale + bias); the block is written back
  at every point. Here: what the output's staging buffer holds after the body (the body's one store read back),
  the proof that the body leaves that and its five inputs untouched, the proof data and the body obligation —
  all at a parameter V, the contents of the core's buffers when this pass is entered.
-/
import proofs.«130351_g67611375173654_cont_9to1c4b_816_22_alg».proof.Proof.Gen.KernelIdeal.Launch
import proofs.«130351_g67611375173654_cont_9to1c4b_816_22_alg».proof.Proof.Gen.KernelIdeal.Skeleton
import proofs.«130351_g67611375173654_cont_9to1c4b_816_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is in its staging buffer at every point, whatever proof data names it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 is in its staging buffer at every point, whatever proof data names it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 is in its staging buffer at every point, whatever proof data names it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 is in its staging buffer at every point, whatever proof data names it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 is in its staging buffer at every point, whatever proof data names it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers at a point -/

abbrev VO1_5 : View sig .tc .vmem S16384x64 .f32 := (Memref.whole cc1_stg5_0 : Memref sig .tc .vmem S16384x64 .f32).view
abbrev ms1_0 (t : Fin cfg1.N) : Memref sig .tc .vmem S2x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x8x9 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S9x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16384x64 .f32 := win1_5.stage (cfg1.slots t 5)
abbrev hs1_5 (t : Fin cfg1.N) : (ms1_5 t).IsWhole := hstage1_5 ((cfg1.slots t 5).cast nbuf1_5)

/-! ## The body, run once -/

set_option maxHeartbeats 1000000 in
/-- The five inputs are read, the output block (at anything) is overwritten whole. The pieces the output ends with
    are what the run finds. -/
noncomputable def kernelRun1 (c : Dev nD) (i : grid1.Coords)
    (arg1 : Memref sig .tc .vmem S2x64 .f32) (harg1 : arg1.IsWhole) (arg2 : Memref sig .tc .vmem S2048x8x9 .f32) (harg2 : arg2.IsWhole)
    (arg3 : Memref sig .tc .vmem S9x64 .bf16) (harg3 : arg3.IsWhole) (arg4 : Memref sig .tc .vmem S1x64 .f32) (harg4 : arg4.IsWhole)
    (arg5 : Memref sig .tc .vmem S1x64 .f32) (harg5 : arg5.IsWhole) (arg6 : Memref sig .tc .vmem S16384x64 .f32) (harg6 : arg6.IsWhole)
    (x0 : Vec F S2x64 .f32) (x1 : Vec F S2048x8x9 .f32) (x2 : Vec F S9x64 .bf16) (x3 : Vec F S1x64 .f32) (x4 : Vec F S1x64 .f32) :
    { L5 : List (View.Piece (Elt F) S16384x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1_apply_body i arg1 harg1 arg2 harg2 arg3 harg3 arg4 harg4 arg5 harg5 arg6 harg6) K } := by
  refine ⟨?_, fun E K => ?run⟩
  case run =>
    simp only [cc1_apply_body_eq_skeleton]; unfold cc1_apply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Hand

end
-- ==== Proof.IdealRegion1.lean ====
/-
  The second pass, continued: what the output block's staging buffer holds after the body, the pass's proof data,
  and the body obligation at every point.
-/
import proofs.«130351_g67611375173654_cont_9to1c4b_816_22_alg».proof.Proof.Gen.KernelIdeal.Launch
import proofs.«130351_g67611375173654_cont_9to1c4b_816_22_alg».proof.Proof.Gen.KernelIdeal.Skeleton
import proofs.«130351_g67611375173654_cont_9to1c4b_816_22_alg».proof.Proof.Gen.KernelIdeal.Points
import proofs.«130351_g67611375173654_cont_9to1c4b_816_22_alg».proof.Proof.IdealRegion1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's one store covers the whole 16384×64 block. -/
theorem cover1_5 (c : Dev nD) (i : grid1.Coords)
    (arg1 : Memref sig .tc .vmem S2x64 .f32) (harg1 : arg1.IsWhole) (arg2 : Memref sig .tc .vmem S2048x8x9 .f32) (harg2 : arg2.IsWhole)
    (arg3 : Memref sig .tc .vmem S9x64 .bf16) (harg3 : arg3.IsWhole) (arg4 : Memref sig .tc .vmem S1x64 .f32) (harg4 : arg4.IsWhole)
    (arg5 : Memref sig .tc .vmem S1x64 .f32) (harg5 : arg5.IsWhole) (arg6 : Memref sig .tc .vmem S16384x64 .f32) (harg6 : arg6.IsWhole)
    (x0 : Vec F S2x64 .f32) (x1 : Vec F S2048x8x9 .f32) (x2 : Vec F S9x64 .bf16) (x3 : Vec F S1x64 .f32) (x4 : Vec F S1x64 .f32) (y : S16384x64.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S16384x64.size (by sl_kernel_rfl) y

/-- What the body leaves in the output block's staging buffer: its store read back. -/
def out1_5 (c : Dev nD) (i : grid1.Coords)
    (arg1 : Memref sig .tc .vmem S2x64 .f32) (harg1 : arg1.IsWhole) (arg2 : Memref sig .tc .vmem S2048x8x9 .f32) (harg2 : arg2.IsWhole)
    (arg3 : Memref sig .tc .vmem S9x64 .bf16) (harg3 : arg3.IsWhole) (arg4 : Memref sig .tc .vmem S1x64 .f32) (harg4 : arg4.IsWhole)
    (arg5 : Memref sig .tc .vmem S1x64 .f32) (harg5 : arg5.IsWhole) (arg6 : Memref sig .tc .vmem S16384x64 .f32) (harg6 : arg6.IsWhole)
    (x0 : Vec F S2x64 .f32) (x1 : Vec F S2048x8x9 .f32) (x2 : Vec F S9x64 .bf16) (x3 : Vec F S1x64 .f32) (x4 : Vec F S1x64 .f32) : Vec F S16384x64 .f32 :=
  VO1_5.read (Elt F) (VO1_5.writes (Elt F) VO1_5.junk (kernelRun1 c i arg1 harg1 arg2 harg2 arg3 harg3 arg4 harg4 arg5 harg5 arg6 harg6 x0 x1 x2 x3 x4).1)

/-- The output block after the body at point t, from the five input blocks at t. -/
def outAt1 (c : Dev nD) (t : Fin cfg1.N) : Vec F S16384x64 .f32 :=
  out1_5 c (grid1.coords t) (ms1_0 t) (hs1_0 t) (ms1_1 t) (hs1_1 t) (ms1_2 t) (hs1_2 t) (ms1_3 t) (hs1_3 t) (ms1_4 t) (hs1_4 t) (ms1_5 t) (hs1_5 t)
    (iblk1 V c 0 t) (iblk1 V c 1 t) (iblk1 V c 2 t) (iblk1 V c 3 t) (iblk1 V c 4 t)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the five inputs' buffers hold their blocks, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outAt1 out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program as one run: four host operations (three reshapes and the weights' change of format), the first
  pass, the second pass. The contents of the core's buffers are followed boundary by boundary — at launch; after the
  host operations; after the first pass (its arrays at what its write-backs leave, everything else as before); after
  the second pass likewise — and the run ends with EVERY unscoped buffer at the last boundary's contents. From that:
  the four argument arrays end as launched (no operation and no pass writes one), and the result array ends at what
  the second pass's write-backs leave.
-/
import proofs.«130351_g67611375173654_cont_9to1c4b_816_22_alg».proof.Proof.Gen.KernelIdeal.Launch
import proofs.«130351_g67611375173654_cont_9to1c4b_816_22_alg».proof.Proof.Gen.KernelIdeal.Skeleton
import proofs.«130351_g67611375173654_cont_9to1c4b_816_22_alg».proof.Proof.Gen.KernelIdeal.Points
import proofs.«130351_g67611375173654_cont_9to1c4b_816_22_alg».proof.Proof.IdealRegion0
import proofs.«130351_g67611375173654_cont_9to1c4b_816_22_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the four host operations (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pass: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pass: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- A buffer none of the four host operations writes is as launched after them. -/
theorem W1_of_not_written (c : Dev nD) (b : Ref sig .tc)
    (hb : b ≠ main_call0_v0 ∧ b ≠ main_call0_v1 ∧ b ≠ main_call0_v2 ∧ b ≠ main_call0_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl

/-! ## The proof data family and the thread state -/

abbrev adm : (p : Fin 2) → (pcfgs (F := F) p).Adm := fun p => (cfgs p).toPCfg_adm
/-- Each pass's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two passes as segments -/

set_option backward.isDefEq.respectTransparency.types false in
/-- Pass 0 over the thread state: its arrays are split out of the unscoped buffers at entry and put back at the
    contents the pipeline leaves at exit; the generator register rides through the pass's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 over the thread state: its arrays are split out of the unscoped buffers at entry and put back at the
    contents the pipeline leaves at exit; the generator register rides through the pass's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with its result named: the result array ends at what the second pass's write-backs leave, and the four
    argument arrays end as launched. -/
theorem run_named : θ_run defs (onTc (τ := τ) (main (F := F))) ⟨m, fun _ => 0, ρ⟩ (fun r => ∀ c : Dev nD,
      r.2.mem ((c.tc : Thread nD τ).loc main_v0) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.KernelIdeal.Hand

end
-- ==== Proof.Spec.lean ====
/-
  The specification, over the real numbers, of one training-mode batch-norm layer after a bias-free linear map:
  rows n (2^20 of them), input width 9, output channels c (64 of them).

    lin n c      = sum over k of x n k * w k c                (the linear layer)
    colSum c     = sum over n of lin n c,   colSq c = sum over n of (lin n c)^2
    mean c       = colSum c / 2^20
    varCentered  = (sum over n of (lin n c - mean c)^2) / 2^20          (the variance as a centred second moment)
    varMoments   = colSq c / 2^20 - (mean c)^2                          (the same variance from the raw moments)
    out n c      = max (normalised * gamma + beta, 0)

  The one law that joins the two ways of computing the layer is  varMoments = varCentered  (expand the square and
  use  sum over n of lin n c = 2^20 * mean c);  with it the affine forms  (l - mean) * r * g + b  and
  l * (g * r) + (b - mean * (g * r))  agree by ring arithmetic.  The variance is a mean of squares, hence
  nonnegative, so with a positive epsilon the inverse standard deviation is an honest positive real.
-/
import Idealize.ShloMosaic.PureOps.Ideal

noncomputable section

namespace Cert.Spec

open scoped BigOperators

variable (x : Fin 1048576 → Fin 9 → ℝ) (w : Fin 9 → Fin 64 → ℝ) (g b : Fin 64 → ℝ) (ε : ℝ)

/-- The linear layer: row n of x against column c of w. -/
def lin (n : Fin 1048576) (c : Fin 64) : ℝ := ∑ k : Fin 9, x n k * w k c

/-- The column sums of the linear layer's output and of its square. -/
def colSum (c : Fin 64) : ℝ := ∑ n : Fin 1048576, lin x w n c
def colSq (c : Fin 64) : ℝ := ∑ n : Fin 1048576, lin x w n c * lin x w n c

/-- The batch mean of channel c. -/
def mean (c : Fin 64) : ℝ := colSum x w c * (1 / 1048576)

/-- The biased batch variance as the mean of the centred squares. -/
def varCentered (c : Fin 64) : ℝ :=
  (∑ n : Fin 1048576, (lin x w n c - mean x w c) * (lin x w n c - mean x w c)) * (1 / 1048576)

/-- The same variance from the raw moments: E[h^2] - E[h]^2. -/
def varMoments (c : Fin 64) : ℝ := colSq x w c * (1 / 1048576) - mean x w c * mean x w c

/-- The inverse standard deviation at variance v. -/
def invStd (v : ℝ) : ℝ := (Real.sqrt (v + ε))⁻¹

/-- The layer's output, normalising first and then applying the affine map. -/
def outCentered (n : Fin 1048576) (c : Fin 64) : ℝ :=
  max ((lin x w n c - mean x w c) * invStd ε (varCentered x w c) * g c + b c) 0

/-- The layer's output with the statistics folded into one scale and one bias per channel. -/
def outFolded (n : Fin 1048576) (c : Fin 64) : ℝ :=
  max (lin x w n c * (g c * invStd ε (varMoments x w c))
        + (b c - mean x w c * (g c * invStd ε (varMoments x w c)))) 0

/-- The raw-moment form of the variance equals the centred form, over any finite index type whose
    cardinality is the nonzero real N: with S = sum of l and mu = S / N, expanding the square gives
    sum (l - mu)^2 = sum l^2 - 2 mu S + N mu^2, and S = N mu collapses the last two terms to -N mu^2. -/
private theorem moments_eq_centered {ι : Type} [Fintype ι] (l : ι → ℝ) (N : ℝ)
    (hcard : (Fintype.card ι : ℝ) = N) (hN : N ≠ 0) :
    (∑ i, l i * l i) * (1 / N) - ((∑ i, l i) * (1 / N)) * ((∑ i, l i) * (1 / N))
      = (∑ i, (l i - (∑ j, l j) * (1 / N)) * (l i - (∑ j, l j) * (1 / N))) * (1 / N) := by
  have hexp : ∀ i, (l i - (∑ j, l j) * (1 / N)) * (l i - (∑ j, l j) * (1 / N))
      = l i * l i - 2 * ((∑ j, l j) * (1 / N)) * l i
        + ((∑ j, l j) * (1 / N)) * ((∑ j, l j) * (1 / N)) := fun i => by ring
  rw [Finset.sum_congr rfl (fun i _ => hexp i), Finset.sum_add_distrib, Finset.sum_sub_distrib,
    ← Finset.mul_sum, Finset.sum_const, Finset.card_univ, nsmul_eq_mul, hcard]
  field_simp
  ring

/-- E[h^2] - E[h]^2 is the mean of the centred squares. -/
theorem varMoments_eq_varCentered (c : Fin 64) : varMoments x w c = varCentered x w c := by
  have hcard : (Fintype.card (Fin 1048576) : ℝ) = 1048576 := by
    rw [Fintype.card_fin]; norm_num
  exact moments_eq_centered (fun n => lin x w n c) 1048576 hcard (by norm_num)

/-- A mean of squares is nonnegative. -/
theorem varCentered_nonneg (c : Fin 64) : 0 ≤ varCentered x w c := by
  unfold varCentered
  exact mul_nonneg (Finset.sum_nonneg (fun n _ => mul_self_nonneg _)) (by norm_num)

/-- The folded form of the layer is the centred form. -/
theorem outFolded_eq_outCentered (n : Fin 1048576) (c : Fin 64) :
    outFolded x w g b ε n c = outCentered x w g b ε n c := by
  unfold outFolded outCentered
  rw [varMoments_eq_varCentered]
  congr 1
  ring

end Cert.Spec

end
-- ==== Proof.KSpec.lean ====
/-
  Two small definitions the kernel's side of the bridge is stated over.

  The kernel views the 2^20 × 9 input as 131072 groups of 8 rows: group a, row r within it, is row 8a + r.
  Its second pass is handed the two column sums s and q as data and computes, per entry,
      max ( lin n c * (g c * r c) + (b c - (s c / 2^20) * (g c * r c)) , 0 ),   r c = invStd (q c / 2^20 - (s c / 2^20)^2);
  at s = colSum, q = colSq this is the specification's folded form.
-/
import proofs.«130351_g67611375173654_cont_9to1c4b_816_22_alg».proof.Proof.Spec

noncomputable section

namespace Cert.Spec

/-- Row r of group a in the flat numbering. -/
def row (a : Fin 131072) (r : Fin 8) : Fin 1048576 := ⟨8 * a.val + r.val, by omega⟩

variable (x : Fin 1048576 → Fin 9 → ℝ) (w : Fin 9 → Fin 64 → ℝ) (g b : Fin 64 → ℝ) (ε : ℝ)

/-- The variance the second pass forms from given column sums s (of h) and q (of h·h). -/
def varFrom (s q : Fin 64 → ℝ) (c : Fin 64) : ℝ :=
  q c * (1 / 1048576) - (s c * (1 / 1048576)) * (s c * (1 / 1048576))

/-- The second pass's output from given column sums. -/
def foldedFrom (s q : Fin 64 → ℝ) (n : Fin 1048576) (c : Fin 64) : ℝ :=
  max (lin x w n c * (g c * invStd ε (varFrom s q c))
        + (b c - (s c * (1 / 1048576)) * (g c * invStd ε (varFrom s q c)))) 0

/-- At the true column sums the variance formed is the moment form of the specification. -/
theorem varFrom_col (c : Fin 64) : varFrom (colSum x w) (colSq x w) c = varMoments x w c := rfl

/-- At the true column sums the second pass computes the specification's folded form. -/
theorem foldedFrom_col (n : Fin 1048576) (c : Fin 64) :
    foldedFrom x w g b ε (colSum x w) (colSq x w) n c = outFolded x w g b ε n c := rfl

end Cert.Spec

end
-- ==== Proof.KHost.lean ====
/-
  What the four host operations leave, read entry by entry at the exact instance: the grouped input's entry
  (a, r, k) is x's entry (8a + r, k) (a reshape keeps row-major positions: ((a·8 + r)·9 + k) on both sides); the
  weights are unchanged (a change of float format is the identity); gamma and beta become 1×64 rows.
-/
import proofs.«130351_g67611375173654_cont_9to1c4b_816_22_alg».proof.Proof.IdealRun
import proofs.«130351_g67611375173654_cont_9to1c4b_816_22_alg».proof.Proof.KSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem V1_v0 (c : Dev nD) :
    (V1 m ρ c main_call0_v0 : FVec Ideal S131072x8x9 .f32)
      = shapeCast S131072x8x9 (m ((c : Thread nD τ).loc main_arg0) : FVec Ideal S1048576x9 .f32) shapeCasts_S1048576x9_S131072x8x9 := by
  show StableHlo.after hostOps0 (fun b => m (c, b)) (Proc.devRef .tc main_call0_v0) = _
  after_results
  rfl

theorem V1_v1 (c : Dev nD) :
    (V1 m ρ c main_call0_v1 : FVec Ideal S9x64 .bf16)
      = (truncf (F := Ideal) .bf16 (m ((c : Thread nD τ).loc main_arg1) : FVec Ideal S9x64 .f32) bitsLt_bf16_f32 : FVec Ideal S9x64 .bf16) := by
  show StableHlo.after hostOps0 (fun b => m (c, b)) (Proc.devRef .tc main_call0_v1) = _
  after_results
  rfl

theorem V1_v2 (c : Dev nD) :
    (V1 m ρ c main_call0_v2 : FVec Ideal S1x64 .f32)
      = shapeCast S1x64 (m ((c : Thread nD τ).loc main_arg2) : FVec Ideal S64 .f32) shapeCasts_S64_S1x64 := by
  show StableHlo.after hostOps0 (fun b => m (c, b)) (Proc.devRef .tc main_call0_v2) = _
  after_results
  rfl

theorem V1_v3 (c : Dev nD) :
    (V1 m ρ c main_call0_v3 : FVec Ideal S1x64 .f32)
      = shapeCast S1x64 (m ((c : Thread nD τ).loc main_arg3) : FVec Ideal S64 .f32) shapeCasts_S64_S1x64 := by
  show StableHlo.after hostOps0 (fun b => m (c, b)) (Proc.devRef .tc main_call0_v3) = _
  after_results
  rfl

/-- Entry (a, r, k) of the grouped input is entry (8a + r, k) of x. -/
theorem V1_v0_apply (c : Dev nD) (a : Fin 131072) (r : Fin 8) (k : Fin 9) :
    (V1 m ρ c main_call0_v0 : FVec Ideal S131072x8x9 .f32) (ix3 a r k)
      = (m ((c : Thread nD τ).loc main_arg0) : FVec Ideal S1048576x9 .f32) (ix2 (Cert.Spec.row a r) k) := by
  rw [V1_v0]
  exact shapeCast_apply _ _ _ _ (by
    show ((⟨2, ![1048576, 9]⟩ : Shape).rowMajor (ix2 (Cert.Spec.row a r) k)).val
      = ((⟨3, ![131072, 8, 9]⟩ : Shape).rowMajor (ix3 a r k)).val
    rw [Shape.rowMajor_val_two, Shape.rowMajor_val_three]
    show (8 * a.val + r.val) * 9 + k.val = (a.val * 8 + r.val) * 9 + k.val
    omega)

/-- The weights as the passes see them are the weights. -/
theorem V1_v1_apply (c : Dev nD) (k : Fin 9) (ch : Fin 64) :
    (V1 m ρ c main_call0_v1 : FVec Ideal S9x64 .bf16) (ix2 k ch)
      = (m ((c : Thread nD τ).loc main_arg1) : FVec Ideal S9x64 .f32) (ix2 k ch) := by
  rw [V1_v1]
  rfl

/-- Gamma's row at channel c is gamma at c. -/
theorem V1_v2_apply (c : Dev nD) (ch : Fin 64) :
    (V1 m ρ c main_call0_v2 : FVec Ideal S1x64 .f32) (ix2 0 ch)
      = (m ((c : Thread nD τ).loc main_arg2) : FVec Ideal S64 .f32) (ix1 ch) := by
  rw [V1_v2]
  exact shapeCast_a_1a_apply _ _ 0 ch

/-- Beta's row at channel c is beta at c. -/
theorem V1_v3_apply (c : Dev nD) (ch : Fin 64) :
    (V1 m ρ c main_call0_v3 : FVec Ideal S1x64 .f32) (ix2 0 ch)
      = (m ((c : Thread nD τ).loc main_arg3) : FVec Ideal S64 .f32) (ix1 ch) := by
  rw [V1_v3]
  exact shapeCast_a_1a_apply _ _ 0 ch

end Cert.KernelIdeal.Hand

end
-- ==== Proof.Consts.lean ====
/-
  The float literals of this layer, read as extended reals, and three small facts about extended reals.

  A 32-bit pattern with sign bit 0, exponent field E (neither 0 nor 255) and fraction field T denotes the
  real (2^23 + T) * 2^(E - 127 - 23).  The words used here:
    0x35800000 : E = 107, T = 0,       hence 2^23 * 2^(-43) = 2^(-20) = 1 / 1048576;
    0x49800000 : E = 147, T = 0,       hence 2^23 * 2^(-3)  = 2^20    = 1048576;
    0x00000000 : the zero;
    0x3A83126F : E = 117, T = 201327,  hence 8589935 * 2^(-33), the single-precision neighbour of 0.001.
  Of the last one only two things are used: it is a real number, and it is positive.  It is therefore named
  eps and kept opaque.

  With eps > 0 and a variance v >= 0 the argument v + eps of the inverse square root is a positive real, so the
  extended-real inverse square root is the real one; division by the real 2^20 is multiplication by 2^(-20);
  and the maximum of two reals is the same whether taken among the reals or among the extended reals.
-/
import Idealize.ShloMosaic.PureOps.Ideal
import proofs.«130351_g67611375173654_cont_9to1c4b_816_22_alg».proof.Proof.Spec

noncomputable section

namespace Cert.Consts

open Idealize.ShloMosaic

/-- The word 0x35800000 denotes 2^(-20). -/
theorem ofBits_inv_n : Ideal.ofBits .f32 0x35800000#32 = (((1 : ℝ) / 1048576 : ℝ) : EReal) := by
  simp [Ideal.ofBits, Ideal.ieee, -EReal.coe_mul]; norm_num

/-- The word 0x49800000 denotes 2^20. -/
theorem ofBits_n : Ideal.ofBits .f32 0x49800000#32 = ((1048576 : ℝ) : EReal) := by
  simp [Ideal.ofBits, Ideal.ieee, -EReal.coe_mul]; norm_num

/-- The all-zero word denotes 0. -/
theorem ofBits_zero : Ideal.ofBits .f32 0x00000000#32 = (0 : EReal) := by
  simp [Ideal.ofBits, Ideal.ieee]

/-- The word 0x3A83126F is a normal positive number: it denotes the real 8589935 * 2^(-33). -/
private theorem ofBits_eps_value :
    Ideal.ofBits .f32 0x3A83126F#32 = (((8589935 : ℝ) * (2 : ℝ) ^ (-33 : ℤ) : ℝ) : EReal) := by
  simp [Ideal.ofBits, Ideal.ieee, -EReal.coe_mul]

/-- The batch-norm epsilon: the real number that the single-precision literal 0.001 denotes. -/
def eps : ℝ := (Ideal.ofBits .f32 0x3A83126F#32).toReal

theorem ofBits_eps : Ideal.ofBits .f32 0x3A83126F#32 = ((eps : ℝ) : EReal) := by
  unfold eps
  rw [ofBits_eps_value, EReal.toReal_coe]

theorem eps_pos : 0 < eps := by
  unfold eps
  rw [ofBits_eps_value, EReal.toReal_coe]
  positivity

/-- At a nonnegative variance the argument of the inverse square root is a positive real, so the
    extended-real inverse square root takes its ordinary branch. -/
theorem rsqrt_coe_of_nonneg (v : ℝ) (hv : 0 ≤ v) :
    Ideal.rsqrt (((v + eps : ℝ)) : EReal) = ((Cert.Spec.invStd eps v : ℝ) : EReal) := by
  have hpos : 0 < v + eps := add_pos_of_nonneg_of_pos hv eps_pos
  rw [Ideal.rsqrt_coe, if_neg (not_lt.mpr hpos.le), if_neg hpos.ne']
  rfl

/-- Division by 2^20 is multiplication by 2^(-20). -/
theorem div_n (r : ℝ) :
    Ideal.div (r : EReal) ((1048576 : ℝ) : EReal) = ((r * (1 / 1048576) : ℝ) : EReal) := by
  rw [Ideal.div_coe (by norm_num) (r : EReal), ← EReal.coe_mul]

/-- The inclusion of the reals in the extended reals is monotone, so it commutes with max. -/
theorem max_coe_zero (r : ℝ) : max (r : EReal) (0 : EReal) = ((max r 0 : ℝ) : EReal) := by
  rw [← EReal.coe_zero]
  exact (EReal.coe_strictMono.monotone.map_max).symm

end Cert.Consts

end
-- ==== Proof.LibERealSums.lean ====
/-
  Finite sums, products and running maxima of extended reals all of whose terms are real numbers.

  On the extended reals multiplication does not distribute over addition at the infinities, and a sum
  cannot be regrouped against a factor there. Every law below is therefore proved by naming the real
  numbers behind the terms, moving the coercion ℝ → EReal outside the sum or product, and doing the
  algebra in ℝ.
-/
import Mathlib.Data.EReal.Operations
import Mathlib.Algebra.BigOperators.Group.Finset.Basic
import Mathlib.Algebra.BigOperators.Ring.Finset
import Mathlib.Data.Finset.Fold
import Mathlib.Tactic.Ring

namespace Cert.ERealSums

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real extended reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A difference of two real extended reals is real. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- A finite sum of real extended reals is real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

/-- A finite sum of products of real extended reals (an inner product of two real vectors) is real. -/
theorem exists_real_sum_mul {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  exists_real_sum s _ (fun i => exists_real_mul (hf i) (hg i))

/-- The maximum of two real extended reals is real. -/
theorem exists_real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- The running maximum, started from ⊥, of real values over a NONEMPTY finite set is real (over the empty
    set it is ⊥). -/
theorem exists_real_fold_max {ι : Type*} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a => rw [Finset.fold_singleton, max_bot_right]; exact hf a
  | cons a s ha hs ih => rw [Finset.fold_cons]; exact exists_real_max (hf a) ih

/-- A real factor moves out of a finite sum of products of reals: ∑ x·(w·c) = (∑ x·w)·c. (False on the
    extended reals in general: the sum on the right can be ⊤ + ⊥.) -/
theorem sum_mul_mul_eq_sum_mul_mul {ι : Type*} (s : Finset ι) (x w : ι → EReal) (c : EReal)
    (hx : ∀ i, ∃ r : ℝ, x i = (r : EReal)) (hw : ∀ i, ∃ r : ℝ, w i = (r : EReal)) (hc : ∃ r : ℝ, c = (r : EReal)) :
    ∑ i ∈ s, x i * (w i * c) = (∑ i ∈ s, x i * w i) * c := by
  choose a ha using hx
  choose b hb using hw
  obtain ⟨t, rfl⟩ := hc
  have h1 : ∀ i, x i * (w i * (t : EReal)) = ((a i * (b i * t) : ℝ) : EReal) := fun i => by
    rw [ha i, hb i, EReal.coe_mul, EReal.coe_mul]
  have h2 : ∀ i, x i * w i = ((a i * b i : ℝ) : EReal) := fun i => by rw [ha i, hb i, EReal.coe_mul]
  rw [Finset.sum_congr rfl (fun i _ => h1 i), Finset.sum_congr rfl (fun i _ => h2 i), ← coe_finset_sum,
    ← coe_finset_sum, ← EReal.coe_mul, Finset.sum_mul]
  exact congrArg _ (Finset.sum_congr rfl (fun i _ => by ring))

end Cert.ERealSums
-- ==== Proof.KStatsPieces.lean ====
/-
  What each run of the first pass's body leaves in the 2×64 accumulator, as a value: the first point's one store
  holds the block's two rows of sums; a later point's one store holds the running contents plus those two rows.
  Both are read straight off the single covering store the run found.
-/
import proofs.«130351_g67611375173654_cont_9to1c4b_816_22_alg».proof.Proof.IdealRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The offsets of a whole-buffer access of a two-axis buffer are all zero. -/
theorem origin2 : (![0, 0] : Fin 2 → Nat) = fun _ => 0 := funext fun a => by fin_cases a <;> rfl

/-- The offsets of a whole-buffer access of a three-axis buffer are all zero. -/
theorem origin3 : (![0, 0, 0] : Fin 3 → Nat) = fun _ => 0 := funext fun a => by fin_cases a <;> rfl

/-- At the first point the accumulator ends at the two rows of sums of the point's block. -/
theorem stats_first (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : k0_cond1 i = 1#1) (hc2 : ¬k0_cond2 i = 1#1) (x0 : Vec F S4096x8x9 .f32) (x1 : Vec F S9x64 .bf16) :
    out0_A_2 c i arg1 harg1 arg2 harg2 arg3 harg3 hc1 hc2 x0 x1 = k0_pay1 x0 x1 := by
  unfold out0_A_2
  rw [View.read_writes_eq_canon _ _ _ (cover0_A_2 c i arg1 harg1 arg2 harg2 arg3 harg3 hc1 hc2 x0 x1)]
  unfold kernelRun0_A
  dsimp only
  sl_unfold_words
  rw [View.canon_unit_zero origin2]
  simp only [View.readAt_eq_ld, harg1.read_unread, harg2.read_unread, View.ld_unit_zero (S := S4096x8x9) origin3,
    View.ld_unit_zero (S := S9x64) origin2]

/-- At a later point the accumulator ends at its running contents plus the two rows of sums of the point's block. -/
theorem stats_later (c : Dev nD) (i : grid0.Coords) (arg1 : Memref sig .tc .vmem S4096x8x9 .f32) (harg1 : arg1.IsWhole)
    (arg2 : Memref sig .tc .vmem S9x64 .bf16) (harg2 : arg2.IsWhole) (arg3 : Memref sig .tc .vmem S2x64 .f32) (harg3 : arg3.IsWhole)
    (hc1 : ¬k0_cond1 i = 1#1) (hc2 : k0_cond2 i = 1#1) (x0 : Vec F S4096x8x9 .f32) (x1 : Vec F S9x64 .bf16)
    (xo2 : Vec F S2x64 .f32) :
    out0_B_2 c i arg1 harg1 arg2 harg2 arg3 harg3 hc1 hc2 x0 x1 xo2 = k0_pay2 x0 x1 xo2 := by
  unfold out0_B_2
  rw [View.read_writes_eq_canon _ _ _ (cover0_B_2 c i arg1 harg1 arg2 harg2 arg3 harg3 hc1 hc2 x0 x1 xo2)]
  unfold kernelRun0_B
  dsimp only
  sl_unfold_words
  rw [View.canon_unit_zero origin2]
  simp only [View.readAt_eq_ld, harg1.read_unread, harg2.read_unread, harg3.read_unread,
    View.ld_unit_zero (S := S4096x8x9) origin3, View.ld_unit_zero (S := S9x64) origin2,
    View.ld_unit_zero (S := S2x64) origin2]

end Cert.KernelIdeal.Hand

end
-- ==== Proof.KStatsSums.lean ====
/-
  Sums over the 2^20 rows, taken 32768 rows at a time.

  The first pass visits the rows in 32 consecutive stretches of 32768; inside a stretch the rows come as 4096 groups
  of 8, row p of the stretch being row p mod 8 of its group p / 8.  A function on the rows is extended by zero to all
  natural numbers so that "the sum over the first n rows" is defined for every n; adding stretch t to the sum over the
  first 32768·t rows gives the sum over the first 32768·(t+1), and the first 2^20 rows are all of them.
-/
import proofs.«130351_g67611375173654_cont_9to1c4b_816_22_alg».proof.Proof.KSpec
import Mathlib.Algebra.BigOperators.Fin
import Mathlib.Algebra.BigOperators.Group.Finset.Basic

noncomputable section

namespace Cert.Spec

open scoped BigOperators

/-- A function on the rows, extended by zero past the last row. -/
def extend (f : Fin 1048576 → ℝ) (n : ℕ) : ℝ := if h : n < 1048576 then f ⟨n, h⟩ else 0

theorem extend_of_lt (f : Fin 1048576 → ℝ) (n : ℕ) (h : n < 1048576) : extend f n = f ⟨n, h⟩ := dif_pos h

/-- The sum of f over the first n rows. -/
def firstRows (f : Fin 1048576 → ℝ) (n : ℕ) : ℝ := ∑ i ∈ Finset.range n, extend f i

theorem firstRows_zero (f : Fin 1048576 → ℝ) : firstRows f 0 = 0 := Finset.sum_range_zero _

/-- The first 2^20 rows are all the rows. -/
theorem firstRows_all (f : Fin 1048576 → ℝ) : firstRows f 1048576 = ∑ n : Fin 1048576, f n := by
  unfold firstRows
  rw [← Fin.sum_univ_eq_sum_range (extend f) 1048576]
  exact Finset.sum_congr rfl fun i _ => extend_of_lt f i.val i.isLt

/-- Adding the B values of stretch t (rows B·t … B·t + B − 1) to the sum over the first B·t rows gives the sum over
    the first B·(t+1) rows. -/
theorem firstRows_add_stretch (f : Fin 1048576 → ℝ) (B t : ℕ) (g : Fin B → ℝ)
    (hg : ∀ p : Fin B, g p = extend f (B * t + p.val)) :
    firstRows f (B * t) + ∑ p : Fin B, g p = firstRows f (B * (t + 1)) := by
  unfold firstRows
  rw [Nat.mul_succ, Finset.sum_range_add, ← Fin.sum_univ_eq_sum_range (fun p => extend f (B * t + p)) B]
  exact congrArg _ (Finset.sum_congr rfl fun p _ => hg p)

/-- Row p mod 8 of group 4096·t + p / 8 is row 32768·t + p. -/
theorem row_of_stretch (t : ℕ) (ht : t < 32) (p : Fin 32768) :
    row ⟨4096 * t + p.val / 8, by omega⟩ ⟨p.val % 8, by omega⟩ = ⟨32768 * t + p.val, by omega⟩ :=
  Fin.ext (by show 8 * (4096 * t + p.val / 8) + p.val % 8 = 32768 * t + p.val; omega)

/-- The same for the kernel's stretch: its 32768 rows, read group by group. -/
theorem firstRows_add_groups (f : Fin 1048576 → ℝ) (t : ℕ) (ht : t < 32) :
    firstRows f (32768 * t) + ∑ p : Fin 32768, f (row ⟨4096 * t + p.val / 8, by omega⟩ ⟨p.val % 8, by omega⟩)
      = firstRows f (32768 * (t + 1)) :=
  firstRows_add_stretch f 32768 t _ fun p => by
    rw [row_of_stretch t ht p]
    exact (extend_of_lt f _ _).symm

end Cert.Spec

end
-- ==== Proof.KStatsPay.lean ====
/-
  The first pass's payload, read entry by entry over the extended reals.

  From the 4096×8×9 block x of grouped rows and the 9×64 weights w the body forms the 32768×64 product
  h p c = sum over k of x (p / 8) (p mod 8) k * w k c   (the block flattened to 32768 rows, row p being row p mod 8 of
  group p / 8; the narrowing to bf16 is the identity on extended reals; the product starts from a zero accumulator),
  and stores the 2×64 array whose row 0 is the sum of h over the 32768 rows and whose row 1 is the sum of h·h.
  A later point stores the running contents plus that array.
-/
import proofs.«130351_g67611375173654_cont_9to1c4b_816_22_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«130351_g67611375173654_cont_9to1c4b_816_22_alg».proof.Proof.LibERealSums

set_option maxRecDepth 16384

noncomputable section

namespace Cert.KernelIdeal.Hand

open Cert.KernelIdeal Cert.KernelIdeal.Gen
open Idealize.ShloMosaic Idealize.ShloMosaic.ValueIdx
open scoped BigOperators

/-! ## The product of the flattened block with the weights -/

/-- The 32768×64 product the body forms from a block and the weights, at any float instance. -/
def blockProduct {F : FTy → Type} [FloatOps F] (x0 : Vec F S4096x8x9 .f32) (x1 : Vec F S9x64 .bf16) : FVec F S32768x64 .f32 :=
  matmul dot_S32768x9_S9x64_S32768x64_1_0_0_1_n_n none
    (truncf .bf16 (shapeCast S32768x9 (shapeCast S4096x8x9 x0 shapeCasts_S4096x8x9_S4096x8x9) shapeCasts_S4096x8x9_S32768x9) bitsLt_bf16_f32)
    (shapeCast S9x64 x1 shapeCasts_S9x64_S9x64) (constant S32768x64 .f32 0x00000000#32)

/-- The stored array is the two rows of lane sums of the product and of its square, one above the other. -/
theorem k0_pay1_eq {F : FTy → Type} [FloatOps F] (x0 : Vec F S4096x8x9 .f32) (x1 : Vec F S9x64 .bf16) :
    k0_pay1 x0 x1 = concatenate S2x64 0
      [⟨S1x64, shapeCast S1x64 (multiReduction .add [0] S64 (blockProduct x0 x1) 0x00000000#32 reduces_S32768x64_S64 (.inl rfl) rfl) shapeCasts_S64_S1x64⟩,
       ⟨S1x64, shapeCast S1x64 (multiReduction .add [0] S64 (mulf (blockProduct x0 x1) (blockProduct x0 x1)) 0x00000000#32 reduces_S32768x64_S64 (.inl rfl) rfl) shapeCasts_S64_S1x64⟩]
      concatenates_S1x64_S1x64_S2x64_d0 := rfl

/-- A later point's stored array is the running contents plus the first kind's. -/
theorem k0_pay2_eq {F : FTy → Type} [FloatOps F] (x0 : Vec F S4096x8x9 .f32) (x1 : Vec F S9x64 .bf16) (acc : Vec F S2x64 .f32) :
    k0_pay2 x0 x1 acc = addf acc (k0_pay1 x0 x1) := by
  show addf (shapeCast S2x64 acc shapeCasts_S2x64_S2x64) (k0_pay1 x0 x1) = _
  rw [shapeCast_self]

/-! ## The operand indices of the product: rows × contraction, contraction × columns -/

theorem prod_lhs_0 (i : S32768x64.Idx) (q : dot_S32768x9_S9x64_S32768x64_1_0_0_1_n_n.contr.Idx) :
    (dot_S32768x9_S9x64_S32768x64_1_0_0_1_n_n.lhsIdx i q 0).val = (i 0).val := by
  unfold DotDims.lhsIdx
  rw [dif_neg (show ¬(0 : Fin S32768x9.rank) ∈ dot_S32768x9_S9x64_S32768x64_1_0_0_1_n_n.lhsBatch by decide), dif_pos (show (0 : Fin S32768x9.rank) ∈ dot_S32768x9_S9x64_S32768x64_1_0_0_1_n_n.lhsNonContracting by decide)]
  rfl

theorem prod_lhs_1 (i : S32768x64.Idx) (q : dot_S32768x9_S9x64_S32768x64_1_0_0_1_n_n.contr.Idx) :
    (dot_S32768x9_S9x64_S32768x64_1_0_0_1_n_n.lhsIdx i q 1).val = (q ⟨0, by decide⟩).val :=
  dot_S32768x9_S9x64_S32768x64_1_0_0_1_n_n.lhsIdx_val_of_single rfl i q

theorem prod_rhs_0 (i : S32768x64.Idx) (q : dot_S32768x9_S9x64_S32768x64_1_0_0_1_n_n.contr.Idx) :
    (dot_S32768x9_S9x64_S32768x64_1_0_0_1_n_n.rhsIdx i q 0).val = (q ⟨0, by decide⟩).val :=
  dot_S32768x9_S9x64_S32768x64_1_0_0_1_n_n.rhsIdx_val_of_single rfl i q

theorem prod_rhs_1 (i : S32768x64.Idx) (q : dot_S32768x9_S9x64_S32768x64_1_0_0_1_n_n.contr.Idx) :
    (dot_S32768x9_S9x64_S32768x64_1_0_0_1_n_n.rhsIdx i q 1).val = (i 1).val := by
  unfold DotDims.rhsIdx
  rw [dif_neg (show ¬(1 : Fin S9x64.rank) ∈ dot_S32768x9_S9x64_S32768x64_1_0_0_1_n_n.rhsBatch by decide), dif_pos (show (1 : Fin S9x64.rank) ∈ dot_S32768x9_S9x64_S32768x64_1_0_0_1_n_n.rhsNonContracting by decide)]
  rfl

/-- A matrix product into a zero accumulator, at row p and column c: the sum over the nine contracted positions. -/
theorem product_at (lhs : FVec Ideal S32768x9 .bf16) (rhs : FVec Ideal S9x64 .bf16) (p : Fin 32768) (ch : Fin 64) :
    matmul dot_S32768x9_S9x64_S32768x64_1_0_0_1_n_n none lhs rhs (constant (F := Ideal) S32768x64 .f32 0x00000000#32) (ix2 p ch)
      = ∑ k : Fin 9, lhs (ix2 p k) * rhs (ix2 k ch) := by
  simp only [matmul]
  rw [Ideal.matmul_constant_zero_apply, ← Equiv.sum_comp (contrEquiv1 dot_S32768x9_S9x64_S32768x64_1_0_0_1_n_n 9 rfl rfl).symm]
  refine Finset.sum_congr rfl fun k _ => ?_
  have hk := contrEquiv1_symm_val dot_S32768x9_S9x64_S32768x64_1_0_0_1_n_n 9 rfl rfl k
  have el : dot_S32768x9_S9x64_S32768x64_1_0_0_1_n_n.lhsIdx (ix2 p ch) ((contrEquiv1 dot_S32768x9_S9x64_S32768x64_1_0_0_1_n_n 9 rfl rfl).symm k) = ix2 p k := funext fun a => Fin.ext (by
    match a with
    | ⟨0, _⟩ => exact prod_lhs_0 _ _
    | ⟨1, _⟩ => exact (prod_lhs_1 _ _).trans hk)
  have er : dot_S32768x9_S9x64_S32768x64_1_0_0_1_n_n.rhsIdx (ix2 p ch) ((contrEquiv1 dot_S32768x9_S9x64_S32768x64_1_0_0_1_n_n 9 rfl rfl).symm k) = ix2 k ch := funext fun a => Fin.ext (by
    match a with
    | ⟨0, _⟩ => exact (prod_rhs_0 _ _).trans hk
    | ⟨1, _⟩ => exact prod_rhs_1 _ _)
  rw [el, er]

/-! ## The layout steps at an entry -/

/-- The block flattened to 32768 rows: row p is row p mod 8 of group p / 8. -/
theorem flatten_at (x0 : FVec Ideal S4096x8x9 .f32) (p : Fin 32768) (k : Fin 9) :
    shapeCast S32768x9 (shapeCast S4096x8x9 x0 shapeCasts_S4096x8x9_S4096x8x9) shapeCasts_S4096x8x9_S32768x9 (ix2 p k)
      = x0 (ix3 (⟨p.val / 8, by omega⟩ : Fin 4096) (⟨p.val % 8, by omega⟩ : Fin 8) k) := by
  rw [shapeCast_self]
  refine shapeCast_apply x0 shapeCasts_S4096x8x9_S32768x9 (ix2 p k) _ ?_
  rw [Shape.rowMajor_val_three, Shape.rowMajor_val_two]
  show (p.val / 8 * 8 + p.val % 8) * 9 + k.val = p.val * 9 + k.val
  omega

/-- The product at row p and column c: the nine products of the block's row with the weights' column. -/
theorem blockProduct_at (x0 : FVec Ideal S4096x8x9 .f32) (x1 : FVec Ideal S9x64 .bf16) (p : Fin 32768) (ch : Fin 64) :
    blockProduct (F := Ideal) x0 x1 (ix2 p ch)
      = ∑ k : Fin 9, x0 (ix3 (⟨p.val / 8, by omega⟩ : Fin 4096) (⟨p.val % 8, by omega⟩ : Fin 8) k) * x1 (ix2 k ch) := by
  unfold blockProduct
  refine (product_at _ _ p ch).trans ?_
  refine Finset.sum_congr rfl fun k _ => ?_
  rw [truncf_apply, flatten_at, shapeCast_self]

/-- A lane sum over the 32768 rows of a 32768×64 array, at column c. -/
theorem laneSum_at (src : FVec Ideal S32768x64 .f32) (ch : Fin 64) :
    multiReduction (F := Ideal) .add [0] S64 src 0x00000000#32 reduces_S32768x64_S64 (.inl rfl) rfl (ix1 ch)
      = ∑ p : Fin 32768, src (ix2 p ch) := by
  refine (Ideal.multiReduction_add_single src 0x00000000#32 reduces_S32768x64_S64 (.inl rfl) rfl (ix1 ch)).trans ?_
  refine Finset.sum_congr rfl fun p _ => congrArg src ?_
  funext a
  apply Fin.ext
  match a with
  | ⟨0, _⟩ => rfl
  | ⟨1, _⟩ => rfl

/-- A 64-vector viewed as a 1×64 array. -/
theorem asRow_at (v : FVec Ideal S64 .f32) (ch : Fin 64) :
    shapeCast S1x64 v shapeCasts_S64_S1x64 (ix2 (0 : Fin 1) ch) = v (ix1 ch) := by
  refine shapeCast_apply v shapeCasts_S64_S1x64 (ix2 (0 : Fin 1) ch) (ix1 ch) ?_
  rw [Shape.rowMajor_val_one, Shape.rowMajor_val_two]
  show ch.val = 0 * 64 + ch.val
  omega

/-- Two 1×64 rows stacked: row 0 is the first. -/
theorem stack_row0 (a b : FVec Ideal S1x64 .f32) (ch : Fin 64) :
    concatenate S2x64 0 [⟨S1x64, a⟩, ⟨S1x64, b⟩] concatenates_S1x64_S1x64_S2x64_d0 (ix2 (0 : Fin 2) ch) = a (ix2 (0 : Fin 1) ch) :=
  concatenate_pair_apply_left (0 : Fin S2x64.rank) a b concatenates_S1x64_S1x64_S2x64_d0 (ix2 (0 : Fin 2) ch) rfl (ix2 (0 : Fin 1) ch)
    (fun b => by match b with | ⟨0, _⟩ => rfl | ⟨1, _⟩ => rfl)

/-- Two 1×64 rows stacked: row 1 is the second. -/
theorem stack_row1 (a b : FVec Ideal S1x64 .f32) (ch : Fin 64) :
    concatenate S2x64 0 [⟨S1x64, a⟩, ⟨S1x64, b⟩] concatenates_S1x64_S1x64_S2x64_d0 (ix2 (1 : Fin 2) ch) = b (ix2 (0 : Fin 1) ch) :=
  concatenate_pair_apply_right (0 : Fin S2x64.rank) a b concatenates_S1x64_S1x64_S2x64_d0 (ix2 (1 : Fin 2) ch) rfl rfl (ix2 (0 : Fin 1) ch)
    (fun b hb => by match b with | ⟨0, _⟩ => exact absurd rfl hb | ⟨1, _⟩ => rfl) rfl

/-! ## The stored array at an entry -/

/-- Row 0 of the stored array: the column sums of the product over the block's rows. -/
theorem pay1_row0 (x0 : FVec Ideal S4096x8x9 .f32) (x1 : FVec Ideal S9x64 .bf16) (ch : Fin 64) :
    k0_pay1 (F := Ideal) x0 x1 (ix2 (0 : Fin 2) ch) = ∑ p : Fin 32768, blockProduct (F := Ideal) x0 x1 (ix2 p ch) := by
  rw [k0_pay1_eq]
  refine (stack_row0 _ _ ch).trans ?_
  refine (asRow_at _ ch).trans ?_
  exact laneSum_at _ ch

/-- Row 1 of the stored array: the column sums of the product's square. -/
theorem pay1_row1 (x0 : FVec Ideal S4096x8x9 .f32) (x1 : FVec Ideal S9x64 .bf16) (ch : Fin 64) :
    k0_pay1 (F := Ideal) x0 x1 (ix2 (1 : Fin 2) ch)
      = ∑ p : Fin 32768, blockProduct (F := Ideal) x0 x1 (ix2 p ch) * blockProduct (F := Ideal) x0 x1 (ix2 p ch) := by
  rw [k0_pay1_eq]
  refine (stack_row1 _ _ ch).trans ?_
  refine (asRow_at _ ch).trans ?_
  exact laneSum_at _ ch

/-! ## The same over real entries

When every entry of the block and of the weights is a real number, so is every entry of the product and of the stored
array, and the sums are the reals' own: the inclusion of the reals is pushed outwards through each product and sum. -/

/-- The product's entry over real entries. -/
theorem blockProduct_real (x0 : FVec Ideal S4096x8x9 .f32) (x1 : FVec Ideal S9x64 .bf16)
    (xb : Fin 4096 → Fin 8 → Fin 9 → ℝ) (wb : Fin 9 → Fin 64 → ℝ)
    (hx : ∀ (a : Fin 4096) (r : Fin 8) (k : Fin 9), x0 (ix3 a r k) = ((xb a r k : ℝ) : EReal))
    (hw : ∀ (k : Fin 9) (ch : Fin 64), x1 (ix2 k ch) = ((wb k ch : ℝ) : EReal)) (p : Fin 32768) (ch : Fin 64) :
    blockProduct (F := Ideal) x0 x1 (ix2 p ch)
      = ((∑ k : Fin 9, xb ⟨p.val / 8, by omega⟩ ⟨p.val % 8, by omega⟩ k * wb k ch : ℝ) : EReal) := by
  rw [blockProduct_at, Cert.ERealSums.coe_finset_sum]
  refine Finset.sum_congr rfl fun k _ => ?_
  rw [hx, hw, EReal.coe_mul]

/-- Row 0 of the stored array over real entries: the sum over the block's rows of the product. -/
theorem pay1_row0_real (x0 : FVec Ideal S4096x8x9 .f32) (x1 : FVec Ideal S9x64 .bf16)
    (xb : Fin 4096 → Fin 8 → Fin 9 → ℝ) (wb : Fin 9 → Fin 64 → ℝ)
    (hx : ∀ (a : Fin 4096) (r : Fin 8) (k : Fin 9), x0 (ix3 a r k) = ((xb a r k : ℝ) : EReal))
    (hw : ∀ (k : Fin 9) (ch : Fin 64), x1 (ix2 k ch) = ((wb k ch : ℝ) : EReal)) (ch : Fin 64) :
    k0_pay1 (F := Ideal) x0 x1 (ix2 (0 : Fin 2) ch)
      = ((∑ p : Fin 32768, ∑ k : Fin 9, xb ⟨p.val / 8, by omega⟩ ⟨p.val % 8, by omega⟩ k * wb k ch : ℝ) : EReal) := by
  rw [pay1_row0, Cert.ERealSums.coe_finset_sum]
  exact Finset.sum_congr rfl fun p _ => blockProduct_real x0 x1 xb wb hx hw p ch

/-- Row 1 of the stored array over real entries: the sum over the block's rows of the product's square. -/
theorem pay1_row1_real (x0 : FVec Ideal S4096x8x9 .f32) (x1 : FVec Ideal S9x64 .bf16)
    (xb : Fin 4096 → Fin 8 → Fin 9 → ℝ) (wb : Fin 9 → Fin 64 → ℝ)
    (hx : ∀ (a : Fin 4096) (r : Fin 8) (k : Fin 9), x0 (ix3 a r k) = ((xb a r k : ℝ) : EReal))
    (hw : ∀ (k : Fin 9) (ch : Fin 64), x1 (ix2 k ch) = ((wb k ch : ℝ) : EReal)) (ch : Fin 64) :
    k0_pay1 (F := Ideal) x0 x1 (ix2 (1 : Fin 2) ch)
      = ((∑ p : Fin 32768, (∑ k : Fin 9, xb ⟨p.val / 8, by omega⟩ ⟨p.val % 8, by omega⟩ k * wb k ch)
          * (∑ k : Fin 9, xb ⟨p.val / 8, by omega⟩ ⟨p.val % 8, by omega⟩ k * wb k ch) : ℝ) : EReal) := by
  rw [pay1_row1, Cert.ERealSums.coe_finset_sum]
  refine Finset.sum_congr rfl fun p _ => ?_
  rw [blockProduct_real x0 x1 xb wb hx hw p ch, EReal.coe_mul]

end Cert.KernelIdeal.Hand

end
-- ==== Proof.KStats.lean ====
/-
  What the first pass leaves in the 2×64 sums array, at the exact instance: row 0 holds, per channel, the sum over
  all 2^20 rows of h = x·w, and row 1 the sum of h·h. Point t contributes the rows 32768·t … 32768·t + 32767 (its
  4096 groups of 8), point 0 starting the sums and each later point adding to what the one before left; the array
  is written back once, after point 31, so it ends at the last point's running sums.

  The steps: the block of grouped rows the pass reads at point t is groups 4096·t … 4096·t + 4095 of the input, and the
  weights' one block is the weights; so the two rows the body stores at point t are the sums of h and of h·h over
  the rows 32768·t … 32768·t + 32767; by induction on the point the accumulator holds, after point t, the sums over
  the first 32768·(t+1) rows; the only write-back is at point 31 and covers the whole array; and 32768·32 = 2^20.
-/
import proofs.«130351_g67611375173654_cont_9to1c4b_816_22_alg».proof.Proof.IdealRegion0
import proofs.«130351_g67611375173654_cont_9to1c4b_816_22_alg».proof.Proof.KSpec
import proofs.«130351_g67611375173654_cont_9to1c4b_816_22_alg».proof.Proof.Consts
import proofs.«130351_g67611375173654_cont_9to1c4b_816_22_alg».proof.Proof.LibERealSums
import proofs.«130351_g67611375173654_cont_9to1c4b_816_22_alg».proof.Proof.KStatsPieces
import proofs.«130351_g67611375173654_cont_9to1c4b_816_22_alg».proof.Proof.KStatsSums
import proofs.«130351_g67611375173654_cont_9to1c4b_816_22_alg».proof.Proof.KStatsPay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The blocks the pass reads -/

/-- The block of grouped rows at point t. -/
abbrev rowsBlock (c : Dev nD) (t : Fin cfg0.N) : Vec Ideal S4096x8x9 .f32 := iblk0 V c 0 t

/-- The weights' block at point t. -/
abbrev weightsBlock (c : Dev nD) (t : Fin cfg0.N) : Vec Ideal S9x64 .bf16 := iblk0 V c 1 t

/-- The block index of the grouped rows moves with the point on axis 0 and is zero on the others; the weights' and the
    accumulator's never move. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Group a of the block at point t is group 4096·t + a of the input. -/
theorem rowsBlock_at (c : Dev nD) (t : Fin cfg0.N) (a : Fin 4096) (r : Fin 8) (k : Fin 9) :
    rowsBlock V c t (ix3 a r k)
      = (V c main_call0_v0 : FVec Ideal S131072x8x9 .f32)
          (ix3 (⟨4096 * t.val + a.val, by have := t.isLt; have : cfg0.N = 32 := N_0; omega⟩ : Fin 131072) r k) := by
  obtain ⟨e0, e1, e2, -⟩ := block_indices t
  unfold rowsBlock iblk0
  rw [View.read_apply]
  show V c main_call0_v0 _ = V c main_call0_v0 _
  refine congrArg _ ?_
  funext ax
  apply Fin.ext
  match ax with
  | ⟨0, _⟩ => show win0_0.index t (0 : Fin 3) * 4096 + 1 * a.val = 4096 * t.val + a.val; rw [e0]; omega
  | ⟨1, _⟩ => show win0_0.index t (1 : Fin 3) * 8 + 1 * r.val = r.val; rw [e1]; omega
  | ⟨2, _⟩ => show win0_0.index t (2 : Fin 3) * 9 + 1 * k.val = k.val; rw [e2]; omega

/-- The weights' block is the weights. -/
theorem weightsBlock_at (c : Dev nD) (t : Fin cfg0.N) (k : Fin 9) (ch : Fin 64) :
    weightsBlock V c t (ix2 k ch) = (V c main_call0_v1 : FVec Ideal S9x64 .bf16) (ix2 k ch) := by
  obtain ⟨-, -, -, e0, e1, -⟩ := block_indices t
  unfold weightsBlock iblk0
  rw [View.read_apply]
  show V c main_call0_v1 _ = V c main_call0_v1 _
  refine congrArg _ ?_
  funext ax
  apply Fin.ext
  match ax with
  | ⟨0, _⟩ => show win0_1.index t (0 : Fin 2) * 9 + 1 * k.val = k.val; rw [e0]; omega
  | ⟨1, _⟩ => show win0_1.index t (1 : Fin 2) * 64 + 1 * ch.val = ch.val; rw [e1]; omega

/-! ## The accumulator after each point -/

/-- After point 0 the accumulator holds the two rows of sums of point 0's block. -/
theorem acc_first (c : Dev nD) (h : 0 < cfg0.N) :
    outsAt0 V c 0 h = k0_pay1 (F := Ideal) (rowsBlock V c ⟨0, h⟩) (weightsBlock V c ⟨0, h⟩) :=
  (outsAt0_A V c ⟨0, h⟩ rfl).trans
    (stats_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_1 ⟨0, h⟩).mpr rfl) (fun h' => (hcond0_2 ⟨0, h⟩).mp h' rfl) (iblk0 V c 0 ⟨0, h⟩) (iblk0 V c 1 ⟨0, h⟩))

/-- After point n+1 it holds what point n left plus the two rows of sums of point n+1's block. -/
theorem acc_later (c : Dev nD) (n : ℕ) (h : n + 1 < cfg0.N) :
    outsAt0 V c (n + 1) h
      = addf (outsAt0 V c n (Nat.lt_of_succ_lt h)) (k0_pay1 (F := Ideal) (rowsBlock V c ⟨n + 1, h⟩) (weightsBlock V c ⟨n + 1, h⟩)) :=
  (outsAt0_B V c ⟨n + 1, h⟩ (Nat.succ_ne_zero n)).trans
    ((stats_later (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩)
        (fun h' => Nat.succ_ne_zero n ((hcond0_1 ⟨n + 1, h⟩).mp h')) ((hcond0_2 ⟨n + 1, h⟩).mpr (Nat.succ_ne_zero n))
        (iblk0 V c 0 ⟨n + 1, h⟩) (iblk0 V c 1 ⟨n + 1, h⟩) (outsAt0 V c n (Nat.lt_of_succ_lt h))).trans
      (k0_pay2_eq (F := Ideal) (iblk0 V c 0 ⟨n + 1, h⟩) (iblk0 V c 1 ⟨n + 1, h⟩) (outsAt0 V c n (Nat.lt_of_succ_lt h))))

/-! ## The sums, in real numbers -/

section Real

variable (xr : Fin 1048576 → Fin 9 → ℝ) (wr : Fin 9 → Fin 64 → ℝ)

/-- Channel c of the linear layer's output, as a function of the row. -/
abbrev hcol (ch : Fin 64) : Fin 1048576 → ℝ := fun m => Cert.Spec.lin xr wr m ch

/-- Its square. -/
abbrev hsq (ch : Fin 64) : Fin 1048576 → ℝ := fun m => Cert.Spec.lin xr wr m ch * Cert.Spec.lin xr wr m ch

/-- The two rows the body stores at point n: the sums of h and of h·h over the rows 32768·n … 32768·n + 32767, read
    group by group. -/
theorem block_sums (c : Dev nD)
    (hx : ∀ (a : Fin 131072) (r : Fin 8) (k : Fin 9), (V c main_call0_v0 : FVec Ideal S131072x8x9 .f32) (ix3 a r k) = ((xr (Cert.Spec.row a r) k : ℝ) : EReal))
    (hw : ∀ (k : Fin 9) (ch : Fin 64), (V c main_call0_v1 : FVec Ideal S9x64 .bf16) (ix2 k ch) = ((wr k ch : ℝ) : EReal))
    (ch : Fin 64) (n : ℕ) (h : n < cfg0.N) (hn : n < 32) :
    k0_pay1 (F := Ideal) (rowsBlock V c ⟨n, h⟩) (weightsBlock V c ⟨n, h⟩) (ix2 (0 : Fin 2) ch)
        = ((∑ p : Fin 32768, hcol xr wr ch (Cert.Spec.row ⟨4096 * n + p.val / 8, by omega⟩ ⟨p.val % 8, by omega⟩) : ℝ) : EReal)
    ∧ k0_pay1 (F := Ideal) (rowsBlock V c ⟨n, h⟩) (weightsBlock V c ⟨n, h⟩) (ix2 (1 : Fin 2) ch)
        = ((∑ p : Fin 32768, hsq xr wr ch (Cert.Spec.row ⟨4096 * n + p.val / 8, by omega⟩ ⟨p.val % 8, by omega⟩) : ℝ) : EReal) :=
  ⟨pay1_row0_real (rowsBlock V c ⟨n, h⟩) (weightsBlock V c ⟨n, h⟩)
      (fun a r k => xr (Cert.Spec.row ⟨4096 * n + a.val, by omega⟩ r) k) wr
      (fun a r k => (rowsBlock_at V c ⟨n, h⟩ a r k).trans (hx _ r k))
      (fun k ch' => (weightsBlock_at V c ⟨n, h⟩ k ch').trans (hw k ch')) ch,
   pay1_row1_real (rowsBlock V c ⟨n, h⟩) (weightsBlock V c ⟨n, h⟩)
      (fun a r k => xr (Cert.Spec.row ⟨4096 * n + a.val, by omega⟩ r) k) wr
      (fun a r k => (rowsBlock_at V c ⟨n, h⟩ a r k).trans (hx _ r k))
      (fun k ch' => (weightsBlock_at V c ⟨n, h⟩ k ch').trans (hw k ch')) ch⟩

/-- After point n the accumulator holds, per channel, the sums of h and of h·h over the first 32768·(n+1) rows. -/
theorem running_sums (c : Dev nD)
    (hx : ∀ (a : Fin 131072) (r : Fin 8) (k : Fin 9), (V c main_call0_v0 : FVec Ideal S131072x8x9 .f32) (ix3 a r k) = ((xr (Cert.Spec.row a r) k : ℝ) : EReal))
    (hw : ∀ (k : Fin 9) (ch : Fin 64), (V c main_call0_v1 : FVec Ideal S9x64 .bf16) (ix2 k ch) = ((wr k ch : ℝ) : EReal))
    (ch : Fin 64) : ∀ (n : ℕ) (h : n < cfg0.N),
      (outsAt0 V c n h : FVec Ideal S2x64 .f32) (ix2 (0 : Fin 2) ch) = ((Cert.Spec.firstRows (hcol xr wr ch) (32768 * (n + 1)) : ℝ) : EReal)
      ∧ (outsAt0 V c n h : FVec Ideal S2x64 .f32) (ix2 (1 : Fin 2) ch) = ((Cert.Spec.firstRows (hsq xr wr ch) (32768 * (n + 1)) : ℝ) : EReal)
  | 0, h => by
    obtain ⟨b0, b1⟩ := block_sums V xr wr c hx hw ch 0 h (by omega)
    have k0 := Cert.Spec.firstRows_add_groups (hcol xr wr ch) 0 (by omega)
    have k1 := Cert.Spec.firstRows_add_groups (hsq xr wr ch) 0 (by omega)
    rw [show Cert.Spec.firstRows (hcol xr wr ch) (32768 * 0) = 0 from Cert.Spec.firstRows_zero _, zero_add] at k0
    rw [show Cert.Spec.firstRows (hsq xr wr ch) (32768 * 0) = 0 from Cert.Spec.firstRows_zero _, zero_add] at k1
    exact ⟨(congrFun (acc_first V c h) (ix2 (0 : Fin 2) ch)).trans (b0.trans (congrArg _ k0)),
      (congrFun (acc_first V c h) (ix2 (1 : Fin 2) ch)).trans (b1.trans (congrArg _ k1))⟩
  | n + 1, h => by
    have hn : n + 1 < 32 := lt_of_lt_of_eq h N_0
    obtain ⟨i0, i1⟩ := running_sums c hx hw ch n (Nat.lt_of_succ_lt h)
    obtain ⟨b0, b1⟩ := block_sums V xr wr c hx hw ch (n + 1) h hn
    have k0 := Cert.Spec.firstRows_add_groups (hcol xr wr ch) (n + 1) hn
    have k1 := Cert.Spec.firstRows_add_groups (hsq xr wr ch) (n + 1) hn
    constructor
    · refine (congrFun (acc_later V c n h) (ix2 (0 : Fin 2) ch)).trans ?_
      refine (congrArg₂ (fun u v : EReal => u + v) i0 b0).trans ?_
      rw [← EReal.coe_add]
      exact congrArg _ k0
    · refine (congrFun (acc_later V c n h) (ix2 (1 : Fin 2) ch)).trans ?_
      refine (congrArg₂ (fun u v : EReal => u + v) i1 b1).trans ?_
      rw [← EReal.coe_add]
      exact congrArg _ k1

end Real

/-! ## The array after the pass -/

theorem last_point : 31 < cfg0.N := by rw [show cfg0.N = 32 from N_0]; decide

/-- What the accumulator holds after the last point, as contents of the sums array (its one block is the whole array). -/
abbrev statsResult (c : Dev nD) : Buf (Elt Ideal) ((c : Thread nD τ).loc main_call0_v4) := outsAt0 V c 31 last_point

/-- The accumulator's window: its one block sits at the origin and is the whole 2×64 array, at every point. -/
theorem acc_window : ∀ t : Fin cfg0.N,
    win0_2.index t (0 : Fin 2) * win0_2.size (0 : Fin 2) = 0 ∧ win0_2.xsize (grid0.coords t) (0 : Fin 2) = 2
    ∧ win0_2.index t (1 : Fin 2) * win0_2.size (1 : Fin 2) = 0 ∧ win0_2.xsize (grid0.coords t) (1 : Fin 2) = 64 :=
  (by decide +kernel : ∀ t : Fin grid0.N, _)

/-- The one write-back, at point 31, writes the accumulator's contents after point 31. -/
theorem flushed_stats (c : Dev nD) (t : Fin cfg0.N) (hf : (cfg0.win 2).flush t = true) :
    (dat0 V c).flushed 2 t = ((cfg0.win 2).blk t).view.read (Elt Ideal) (statsResult V c) := by
  have hN : cfg0.N = 32 := N_0
  have h31 : t.val = 31 := by have := (flush0_2 t).mp hf; have := t.isLt; omega
  obtain rfl : t = ⟨31, last_point⟩ := Fin.ext h31
  show (cfg0.win 2).cut (grid0.coords ⟨31, last_point⟩) ((dat0 V c).after 2 ⟨31, last_point⟩) = _
  rw [after0_2]
  obtain ⟨z0, -, z1, -⟩ := acc_window ⟨31, last_point⟩
  have hz' : (fun a => win0_2.index ⟨31, last_point⟩ a * main_call0_v4.ty.shape.size a) = fun _ => 0 :=
    funext fun a => by
      match a with
      | ⟨0, _⟩ => exact z0
      | ⟨1, _⟩ => exact z1
  exact (Memref.read_access_unit_zero (Elt Ideal) main_call0_v4 hz' (fun a => by rw [congrFun hz' a]; simp) (statsResult V c)).symm

/-- So the sums array ends at the accumulator's contents after point 31. -/
theorem stats_array (c : Dev nD) : (dat0 V c).arrAt 2 cfg0.N = statsResult V c :=
  (dat0 V c).arrAt_eq_of_cover 2 (statsResult V c) (flushed_stats V c) fun i =>
    ⟨⟨31, last_point⟩, (flush0_2 ⟨31, last_point⟩).mpr rfl, by
      show i ∈ ((View.whole main_call0_v4).slice (win0_2.rect ⟨31, last_point⟩)).set
      rw [View.set_slice_whole, Rect.mem_set_unit]
      intro a
      have h0 : (i 0 : Nat) < 2 := (i 0).isLt
      have h1 : (i 1 : Nat) < 64 := (i 1).isLt
      obtain ⟨z0, s0, z1, s1⟩ := acc_window ⟨31, last_point⟩
      match a with
      | ⟨0, _⟩ =>
        show win0_2.index ⟨31, last_point⟩ 0 * win0_2.size 0 ≤ (i 0 : Nat)
          ∧ (i 0 : Nat) < win0_2.index ⟨31, last_point⟩ 0 * win0_2.size 0 + win0_2.xsize (grid0.coords ⟨31, last_point⟩) 0
        rw [z0, s0]; omega
      | ⟨1, _⟩ =>
        show win0_2.index ⟨31, last_point⟩ 1 * win0_2.size 1 ≤ (i 1 : Nat)
          ∧ (i 1 : Nat) < win0_2.index ⟨31, last_point⟩ 1 * win0_2.size 1 + win0_2.xsize (grid0.coords ⟨31, last_point⟩) 1
        rw [z1, s1]; omega⟩

/-- The sums array after the first pass: the column sums of h (row 0) and of h·h (row 1), as coerced reals,
    whenever the grouped input and the weights the pass is entered with are real. -/
theorem stats_final (c : Dev nD) (xr : Fin 1048576 → Fin 9 → ℝ) (wr : Fin 9 → Fin 64 → ℝ)
    (hx : ∀ (a : Fin 131072) (r : Fin 8) (k : Fin 9), (V c main_call0_v0 : FVec Ideal S131072x8x9 .f32) (ix3 a r k) = ((xr (Cert.Spec.row a r) k : ℝ) : EReal))
    (hw : ∀ (k : Fin 9) (ch : Fin 64), (V c main_call0_v1 : FVec Ideal S9x64 .bf16) (ix2 k ch) = ((wr k ch : ℝ) : EReal))
    (ch : Fin 64) :
    ((dat0 V c).arrAt 2 cfg0.N : FVec Ideal S2x64 .f32) (ix2 0 ch) = ((Cert.Spec.colSum xr wr ch : ℝ) : EReal)
    ∧ ((dat0 V c).arrAt 2 cfg0.N : FVec Ideal S2x64 .f32) (ix2 1 ch) = ((Cert.Spec.colSq xr wr ch : ℝ) : EReal) := by
  obtain ⟨s0, s1⟩ := running_sums V xr wr c hx hw ch 31 last_point
  have e : 32768 * (31 + 1) = 1048576 := by norm_num
  rw [e] at s0 s1
  rw [Cert.Spec.firstRows_all] at s0 s1
  exact ⟨(congrFun (stats_array V c) (ix2 0 ch)).trans s0, (congrFun (stats_array V c) (ix2 1 ch)).trans s1⟩

end Cert.KernelIdeal.Hand

end
-- ==== Proof.KApply.lean ====
/-
  What the second pass leaves in the 2^20 × 64 result array, at the exact instance. Point t overwrites rows
  16384·t … 16384·t + 16383 (its 2048 groups of 8) and writes them back, so the 64 blocks tile the array; entry
  (n, c) is  max ( h n c · scale c + bias c , 0 )  with scale and bias folded from the sums array, gamma and beta.

  The steps. The pass carries nothing from point to point: at every point the body reads the two rows of the 2×64 sums
  array (row 0 the channel sums s, row 1 the channel sums of squares q), gamma, beta, the weights and its own 2048
  groups of input rows, and overwrites its whole 16384×64 block. Its arithmetic splits into a per-channel part
      mean c = s c · 2^-20,   scale c = gamma c · rsqrt (q c · 2^-20 − mean c · mean c + eps),   bias c = beta c − mean c · scale c
  and a per-row part, the nine-term inner product of row p of the flattened block (row p % 8 of group p / 8) with column
  c of the weights; the entry is max (product · scale c + bias c, 0). With real inputs and a nonnegative variance every
  step is the real one, the inverse square root included. Row p of block t is the global row 16384·t + p, that is row
  p % 8 of group 2048·t + p / 8, so what point t writes back is block t of ONE array-wide function; row n lies in the
  block of point n / 16384, so the blocks cover the array and the array ends equal to that function.
-/
import proofs.«130351_g67611375173654_cont_9to1c4b_816_22_alg».proof.Proof.IdealRegion1
import proofs.«130351_g67611375173654_cont_9to1c4b_816_22_alg».proof.Proof.KSpec
import proofs.«130351_g67611375173654_cont_9to1c4b_816_22_alg».proof.Proof.Consts
import proofs.«130351_g67611375173654_cont_9to1c4b_816_22_alg».proof.Proof.LibERealSums
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

namespace Apply

section Piece
variable {F : FTy → Type} [FloatOps F]

/-- The origin of a rank-2 and of a rank-3 block, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Row 0 of the 2×64 sums block: the channel sums. -/
abbrev sumsRow0 (x0 : Vec F S2x64 .f32) : Vec F S1x64 .f32 :=
  View.ld x0 (Rect.unit (s := S2x64) ![0, 0] S1x64.size inb_S2x64_S1x64_0_0)
/-- Row 1 of the 2×64 sums block: the channel sums of squares. -/
abbrev sumsRow1 (x0 : Vec F S2x64 .f32) : Vec F S1x64 .f32 :=
  View.ld x0 (Rect.unit (s := S2x64) ![1, 0] S1x64.size inb_S2x64_S1x64_1_0)

/-- What the body leaves in the output block: the second pass's arithmetic of the two rows of the sums block, gamma,
    beta, the block of grouped input rows and the weights. -/
theorem out1_eq (c : Dev nD) (i : grid1.Coords)
    (arg1 : Memref sig .tc .vmem S2x64 .f32) (harg1 : arg1.IsWhole) (arg2 : Memref sig .tc .vmem S2048x8x9 .f32) (harg2 : arg2.IsWhole)
    (arg3 : Memref sig .tc .vmem S9x64 .bf16) (harg3 : arg3.IsWhole) (arg4 : Memref sig .tc .vmem S1x64 .f32) (harg4 : arg4.IsWhole)
    (arg5 : Memref sig .tc .vmem S1x64 .f32) (harg5 : arg5.IsWhole) (arg6 : Memref sig .tc .vmem S16384x64 .f32) (harg6 : arg6.IsWhole)
    (x0 : Vec F S2x64 .f32) (x1 : Vec F S2048x8x9 .f32) (x2 : Vec F S9x64 .bf16) (x3 : Vec F S1x64 .f32) (x4 : Vec F S1x64 .f32) :
    out1_5 c i arg1 harg1 arg2 harg2 arg3 harg3 arg4 harg4 arg5 harg5 arg6 harg6 x0 x1 x2 x3 x4
      = k1_pay1 (sumsRow0 x0) (sumsRow1 x0) x3 x4 x1 x2 := by
  unfold out1_5
  rw [View.read_writes_eq_canon _ _ _ (cover1_5 c i arg1 harg1 arg2 harg2 arg3 harg3 arg4 harg4 arg5 harg5 arg6 harg6 x0 x1 x2 x3 x4)]
  unfold kernelRun1
  dsimp only
  sl_unfold_words
  rw [View.canon_unit_zero hz2]
  simp only [View.readAt_eq_ld, harg1.read_unread, harg2.read_unread, harg3.read_unread, harg4.read_unread, harg5.read_unread,
    View.ld_unit_zero (S := S1x64) hz2, View.ld_unit_zero (S := S9x64) hz2, View.ld_unit_zero (S := S2048x8x9) hz3]

/-! ## The arithmetic of the body, cut into its per-channel part and its per-row part -/

/-- The per-channel mean: the channel sum times 2^-20. -/
def chanMean (v0 : Vec F S1x64 .f32) : FVec F S1x64 .f32 :=
  mulf (shapeCast S1x64 v0 shapeCasts_S1x64_S1x64) (broadcast S1x64 (Scalar.ofBits .f32 0x35800000#32))

/-- The per-channel scale: gamma over the standard deviation formed from the two sums. -/
def chanScale (v0 v2 v13 : Vec F S1x64 .f32) : FVec F S1x64 .f32 :=
  mulf (shapeCast S1x64 v13 shapeCasts_S1x64_S1x64)
    (rsqrt (addf (subf (mulf (shapeCast S1x64 v2 shapeCasts_S1x64_S1x64) (broadcast S1x64 (Scalar.ofBits .f32 0x35800000#32)))
        (mulf (chanMean v0) (chanMean v0))) (broadcast S1x64 (Scalar.ofBits .f32 0x3A83126F#32))))

/-- The per-channel bias: beta less the mean times the scale. -/
def chanBias (v0 v2 v13 v16 : Vec F S1x64 .f32) : FVec F S1x64 .f32 :=
  subf (shapeCast S1x64 v16 shapeCasts_S1x64_S1x64) (mulf (chanMean v0) (chanScale v0 v2 v13))

/-- The linear layer on the block's 16384 rows. -/
def rowsLin (v20 : Vec F S2048x8x9 .f32) (v24 : Vec F S9x64 .bf16) : FVec F S16384x64 .f32 :=
  matmul dot_S16384x9_S9x64_S16384x64_1_0_0_1_n_n none
    (truncf .bf16 (shapeCast S16384x9 (shapeCast S2048x8x9 v20 shapeCasts_S2048x8x9_S2048x8x9) shapeCasts_S2048x8x9_S16384x9) bitsLt_bf16_f32)
    (shapeCast S9x64 v24 shapeCasts_S9x64_S9x64) (constant S16384x64 .f32 0x00000000#32)

/-- The body's arithmetic is: rows times scale plus bias, clamped below at zero. -/
theorem k1_pay1_eq (v0 v2 v13 v16 : Vec F S1x64 .f32) (v20 : Vec F S2048x8x9 .f32) (v24 : Vec F S9x64 .bf16) :
    k1_pay1 v0 v2 v13 v16 v20 v24
      = maximumf (addf (mulf (rowsLin v20 v24) (broadcastTo S16384x64 (chanScale v0 v2 v13) broadcasts_S1x64_S16384x64))
          (broadcastTo S16384x64 (chanBias v0 v2 v13 v16) broadcasts_S1x64_S16384x64))
        (broadcast S16384x64 (Scalar.ofBits .f32 0x00000000#32)) := rfl

end Piece

/-! ## The per-row and per-channel parts at the exact instance, entry by entry -/

section AtIdeal

/-- A row vector broadcast down 16384 rows reads, at (p, ch), its entry ch. -/
theorem bcastRow_apply (u : FVec Ideal S1x64 .f32) (p : Fin 16384) (ch : Fin 64) :
    broadcastTo S16384x64 u broadcasts_S1x64_S16384x64 (ix2 p ch) = u (ix2 0 ch) := by
  refine broadcastTo_apply u broadcasts_S1x64_S16384x64 (ix2 p ch) (ix2 0 ch) fun a => ?_
  match a with
  | ⟨0, _⟩ => rfl
  | ⟨1, _⟩ => rfl

/-- The mean of channel ch is its sum times 2^-20. -/
theorem chanMean_apply (v0 : FVec Ideal S1x64 .f32) (ch : Fin 64) (s : ℝ) (h0 : v0 (ix2 0 ch) = ((s : ℝ) : EReal)) :
    chanMean (F := Ideal) v0 (ix2 0 ch) = ((s * (1 / 1048576) : ℝ) : EReal) := by
  show shapeCast S1x64 v0 shapeCasts_S1x64_S1x64 (ix2 0 ch) * Ideal.ofBits .f32 0x35800000#32 = _
  rw [shapeCast_self, h0, Cert.Consts.ofBits_inv_n, ← EReal.coe_mul]

/-- The scale of channel ch: with a nonnegative variance the inverse square root is the real one. -/
theorem chanScale_apply (v0 v2 v13 : FVec Ideal S1x64 .f32) (ch : Fin 64) (s q g : ℝ)
    (h0 : v0 (ix2 0 ch) = ((s : ℝ) : EReal)) (h2 : v2 (ix2 0 ch) = ((q : ℝ) : EReal)) (h13 : v13 (ix2 0 ch) = ((g : ℝ) : EReal))
    (hv : 0 ≤ q * (1 / 1048576) - (s * (1 / 1048576)) * (s * (1 / 1048576))) :
    chanScale (F := Ideal) v0 v2 v13 (ix2 0 ch)
      = ((g * Cert.Spec.invStd Cert.Consts.eps (q * (1 / 1048576) - (s * (1 / 1048576)) * (s * (1 / 1048576))) : ℝ) : EReal) := by
  show shapeCast S1x64 v13 shapeCasts_S1x64_S1x64 (ix2 0 ch)
      * Ideal.rsqrt ((shapeCast S1x64 v2 shapeCasts_S1x64_S1x64 (ix2 0 ch) * Ideal.ofBits .f32 0x35800000#32
          - chanMean (F := Ideal) v0 (ix2 0 ch) * chanMean (F := Ideal) v0 (ix2 0 ch)) + Ideal.ofBits .f32 0x3A83126F#32) = _
  rw [shapeCast_self, shapeCast_self, h13, h2, chanMean_apply v0 ch s h0, Cert.Consts.ofBits_inv_n, Cert.Consts.ofBits_eps,
    ← EReal.coe_mul, ← EReal.coe_mul, ← EReal.coe_sub, ← EReal.coe_add, Cert.Consts.rsqrt_coe_of_nonneg _ hv, ← EReal.coe_mul]

/-- The bias of channel ch. -/
theorem chanBias_apply (v0 v2 v13 v16 : FVec Ideal S1x64 .f32) (ch : Fin 64) (s q g b : ℝ)
    (h0 : v0 (ix2 0 ch) = ((s : ℝ) : EReal)) (h2 : v2 (ix2 0 ch) = ((q : ℝ) : EReal)) (h13 : v13 (ix2 0 ch) = ((g : ℝ) : EReal))
    (h16 : v16 (ix2 0 ch) = ((b : ℝ) : EReal))
    (hv : 0 ≤ q * (1 / 1048576) - (s * (1 / 1048576)) * (s * (1 / 1048576))) :
    chanBias (F := Ideal) v0 v2 v13 v16 (ix2 0 ch)
      = ((b - (s * (1 / 1048576))
          * (g * Cert.Spec.invStd Cert.Consts.eps (q * (1 / 1048576) - (s * (1 / 1048576)) * (s * (1 / 1048576)))) : ℝ) : EReal) := by
  show shapeCast S1x64 v16 shapeCasts_S1x64_S1x64 (ix2 0 ch) - chanMean (F := Ideal) v0 (ix2 0 ch) * chanScale (F := Ideal) v0 v2 v13 (ix2 0 ch) = _
  rw [shapeCast_self, h16, chanMean_apply v0 ch s h0, chanScale_apply v0 v2 v13 ch s q g h0 h2 h13 hv, ← EReal.coe_mul, ← EReal.coe_sub]

/-! ### The block product, row by row -/

/-- The product's operand indices at result index i and contraction position q: the left operand is read at
    (i 0, q), the right one at (q, i 1). -/
theorem lhs_rows_0 (i : S16384x64.Idx) (q : dot_S16384x9_S9x64_S16384x64_1_0_0_1_n_n.contr.Idx) :
    (dot_S16384x9_S9x64_S16384x64_1_0_0_1_n_n.lhsIdx i q 0).val = (i 0).val := by
  unfold DotDims.lhsIdx
  rw [dif_neg (show ¬(0 : Fin S16384x9.rank) ∈ dot_S16384x9_S9x64_S16384x64_1_0_0_1_n_n.lhsBatch by decide),
    dif_pos (show (0 : Fin S16384x9.rank) ∈ dot_S16384x9_S9x64_S16384x64_1_0_0_1_n_n.lhsNonContracting by decide)]
  rfl
theorem lhs_rows_1 (i : S16384x64.Idx) (q : dot_S16384x9_S9x64_S16384x64_1_0_0_1_n_n.contr.Idx) :
    (dot_S16384x9_S9x64_S16384x64_1_0_0_1_n_n.lhsIdx i q 1).val = (q ⟨0, by decide⟩).val :=
  dot_S16384x9_S9x64_S16384x64_1_0_0_1_n_n.lhsIdx_val_of_single rfl i q
theorem rhs_rows_0 (i : S16384x64.Idx) (q : dot_S16384x9_S9x64_S16384x64_1_0_0_1_n_n.contr.Idx) :
    (dot_S16384x9_S9x64_S16384x64_1_0_0_1_n_n.rhsIdx i q 0).val = (q ⟨0, by decide⟩).val :=
  dot_S16384x9_S9x64_S16384x64_1_0_0_1_n_n.rhsIdx_val_of_single rfl i q
theorem rhs_rows_1 (i : S16384x64.Idx) (q : dot_S16384x9_S9x64_S16384x64_1_0_0_1_n_n.contr.Idx) :
    (dot_S16384x9_S9x64_S16384x64_1_0_0_1_n_n.rhsIdx i q 1).val = (i 1).val := by
  unfold DotDims.rhsIdx
  rw [dif_neg (show ¬(1 : Fin S9x64.rank) ∈ dot_S16384x9_S9x64_S16384x64_1_0_0_1_n_n.rhsBatch by decide),
    dif_pos (show (1 : Fin S9x64.rank) ∈ dot_S16384x9_S9x64_S16384x64_1_0_0_1_n_n.rhsNonContracting by decide)]
  rfl

/-- Row p = 8a + r of the flattened block is row r of group a; its product with column ch of the weights is the
    nine-term inner product. -/
theorem rowsLin_apply (v20 : FVec Ideal S2048x8x9 .f32) (v24 : FVec Ideal S9x64 .bf16) (p : Fin 16384) (ch : Fin 64)
    (a : Fin 2048) (r : Fin 8) (hp : p.val = 8 * a.val + r.val) (xrow wcol : Fin 9 → ℝ)
    (hx : ∀ k : Fin 9, v20 (ix3 a r k) = ((xrow k : ℝ) : EReal)) (hw : ∀ k : Fin 9, v24 (ix2 k ch) = ((wcol k : ℝ) : EReal)) :
    rowsLin (F := Ideal) v20 v24 (ix2 p ch) = ((∑ k : Fin 9, xrow k * wcol k : ℝ) : EReal) := by
  unfold rowsLin
  refine (Ideal.matmul_constant_zero_apply dot_S16384x9_S9x64_S16384x64_1_0_0_1_n_n none _ _ (ix2 p ch)).trans ?_
  rw [← Equiv.sum_comp (contrEquiv1 dot_S16384x9_S9x64_S16384x64_1_0_0_1_n_n 9 rfl rfl).symm, Cert.ERealSums.coe_finset_sum]
  refine Finset.sum_congr rfl fun k _ => ?_
  have hk := contrEquiv1_symm_val dot_S16384x9_S9x64_S16384x64_1_0_0_1_n_n 9 rfl rfl k
  have el : dot_S16384x9_S9x64_S16384x64_1_0_0_1_n_n.lhsIdx (ix2 p ch) ((contrEquiv1 dot_S16384x9_S9x64_S16384x64_1_0_0_1_n_n 9 rfl rfl).symm k)
      = ix2 p k := funext fun a => Fin.ext (by
    match a with
    | ⟨0, _⟩ => exact lhs_rows_0 _ _
    | ⟨1, _⟩ => exact (lhs_rows_1 _ _).trans hk)
  have er : dot_S16384x9_S9x64_S16384x64_1_0_0_1_n_n.rhsIdx (ix2 p ch) ((contrEquiv1 dot_S16384x9_S9x64_S16384x64_1_0_0_1_n_n 9 rfl rfl).symm k)
      = ix2 k ch := funext fun a => Fin.ext (by
    match a with
    | ⟨0, _⟩ => exact (rhs_rows_0 _ _).trans hk
    | ⟨1, _⟩ => exact rhs_rows_1 _ _)
  rw [el, er, EReal.coe_mul, ← hx k, ← hw k, shapeCast_self, shapeCast_self]
  show shapeCast S16384x9 v20 shapeCasts_S2048x8x9_S16384x9 (ix2 p k) * _ = _
  refine congrArg (· * v24 (ix2 k ch)) ?_
  refine shapeCast_apply v20 shapeCasts_S2048x8x9_S16384x9 (ix2 p k) (ix3 a r k) ?_
  rw [Shape.rowMajor_val_three, Shape.rowMajor_val_two]
  show (a.val * 8 + r.val) * 9 + k.val = p.val * 9 + k.val
  omega

end AtIdeal

section AtIdeal

/-- One entry of the body's result: from the two sums, gamma and beta of its channel, its row of inputs and its column of
    weights, all real, with a nonnegative variance. -/
theorem pay_apply (v0 v2 v13 v16 : FVec Ideal S1x64 .f32) (v20 : FVec Ideal S2048x8x9 .f32) (v24 : FVec Ideal S9x64 .bf16)
    (p : Fin 16384) (ch : Fin 64) (a : Fin 2048) (r : Fin 8) (hp : p.val = 8 * a.val + r.val)
    (s q g b : ℝ) (xrow wcol : Fin 9 → ℝ)
    (h0 : v0 (ix2 0 ch) = ((s : ℝ) : EReal)) (h2 : v2 (ix2 0 ch) = ((q : ℝ) : EReal)) (h13 : v13 (ix2 0 ch) = ((g : ℝ) : EReal))
    (h16 : v16 (ix2 0 ch) = ((b : ℝ) : EReal))
    (hx : ∀ k : Fin 9, v20 (ix3 a r k) = ((xrow k : ℝ) : EReal)) (hw : ∀ k : Fin 9, v24 (ix2 k ch) = ((wcol k : ℝ) : EReal))
    (hv : 0 ≤ q * (1 / 1048576) - (s * (1 / 1048576)) * (s * (1 / 1048576))) :
    k1_pay1 (F := Ideal) v0 v2 v13 v16 v20 v24 (ix2 p ch)
      = ((max ((∑ k : Fin 9, xrow k * wcol k)
            * (g * Cert.Spec.invStd Cert.Consts.eps (q * (1 / 1048576) - (s * (1 / 1048576)) * (s * (1 / 1048576))))
          + (b - (s * (1 / 1048576))
            * (g * Cert.Spec.invStd Cert.Consts.eps (q * (1 / 1048576) - (s * (1 / 1048576)) * (s * (1 / 1048576)))))) 0 : ℝ) : EReal) := by
  rw [k1_pay1_eq]
  show max (rowsLin (F := Ideal) v20 v24 (ix2 p ch)
        * broadcastTo S16384x64 (chanScale (F := Ideal) v0 v2 v13) broadcasts_S1x64_S16384x64 (ix2 p ch)
      + broadcastTo S16384x64 (chanBias (F := Ideal) v0 v2 v13 v16) broadcasts_S1x64_S16384x64 (ix2 p ch))
    (Ideal.ofBits .f32 0x00000000#32) = _
  rw [bcastRow_apply, bcastRow_apply, rowsLin_apply v20 v24 p ch a r hp xrow wcol hx hw,
    chanScale_apply v0 v2 v13 ch s q g h0 h2 h13 hv, chanBias_apply v0 v2 v13 v16 ch s q g b h0 h2 h13 h16 hv,
    Cert.Consts.ofBits_zero, ← EReal.coe_mul, ← EReal.coe_add, Cert.Consts.max_coe_zero]

/-- Row 0 of the sums block at channel ch is its entry (0, ch); -/
theorem sumsRow0_apply (x0 : FVec Ideal S2x64 .f32) (ch : Fin 64) : sumsRow0 (F := Ideal) x0 (ix2 0 ch) = x0 (ix2 0 ch) := by
  refine congrArg x0 (funext fun a => Fin.ext ?_)
  match a with
  | ⟨0, _⟩ => rfl
  | ⟨1, _⟩ => show 0 + 1 * ch.val = ch.val; omega
/-- row 1 its entry (1, ch). -/
theorem sumsRow1_apply (x0 : FVec Ideal S2x64 .f32) (ch : Fin 64) : sumsRow1 (F := Ideal) x0 (ix2 0 ch) = x0 (ix2 1 ch) := by
  refine congrArg x0 (funext fun a => Fin.ext ?_)
  match a with
  | ⟨0, _⟩ => rfl
  | ⟨1, _⟩ => show 0 + 1 * ch.val = ch.val; omega

end AtIdeal

/-! ## From the blocks to the arrays -/

/-- Where each window's block sits at point t: the grouped input's and the result's block index is t on the leading
    axis; every other block is its whole array. -/
theorem idx_facts1 : ∀ t : Fin cfg1.N, win1_0.index t (0 : Fin 2) = 0 ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The sums block is the sums array. -/
theorem sumsBlk_apply (c : Dev nD) (t : Fin cfg1.N) (i : Fin 2) (ch : Fin 64) :
    (iblk1 V c 0 t : FVec Ideal S2x64 .f32) (ix2 i ch) = (V c main_call0_v4 : FVec Ideal S2x64 .f32) (ix2 i ch) := by
  obtain ⟨e00, e01, -⟩ := idx_facts1 t
  show V c main_call0_v4 (((cfg1.win 0).blk t).view.emb (ix2 i ch)) = V c main_call0_v4 (ix2 i ch)
  refine congrArg _ (funext fun a => Fin.ext ?_)
  match a with
  | ⟨0, _⟩ => show win1_0.index t (0 : Fin 2) * 2 + 1 * i.val = i.val; rw [e00]; omega
  | ⟨1, _⟩ => show win1_0.index t (1 : Fin 2) * 64 + 1 * ch.val = ch.val; rw [e01]; omega

/-- The block of grouped input rows at point t: group a of the block is group 2048 t + a of the array. -/
theorem xBlk_apply (c : Dev nD) (t : Fin cfg1.N) (a : Fin 2048) (r : Fin 8) (k : Fin 9) (a' : Fin 131072)
    (ha : a'.val = 2048 * t.val + a.val) :
    (iblk1 V c 1 t : FVec Ideal S2048x8x9 .f32) (ix3 a r k) = (V c main_call0_v0 : FVec Ideal S131072x8x9 .f32) (ix3 a' r k) := by
  obtain ⟨-, -, e10, e11, e12, -⟩ := idx_facts1 t
  show V c main_call0_v0 (((cfg1.win 1).blk t).view.emb (ix3 a r k)) = V c main_call0_v0 (ix3 a' r k)
  refine congrArg _ (funext fun d => Fin.ext ?_)
  match d with
  | ⟨0, _⟩ => show win1_1.index t (0 : Fin 3) * 2048 + 1 * a.val = a'.val; rw [e10, ha]; omega
  | ⟨1, _⟩ => show win1_1.index t (1 : Fin 3) * 8 + 1 * r.val = r.val; rw [e11]; omega
  | ⟨2, _⟩ => show win1_1.index t (2 : Fin 3) * 9 + 1 * k.val = k.val; rw [e12]; omega

/-- The weights block is the weights array. -/
theorem wBlk_apply (c : Dev nD) (t : Fin cfg1.N) (k : Fin 9) (ch : Fin 64) :
    (iblk1 V c 2 t : FVec Ideal S9x64 .bf16) (ix2 k ch) = (V c main_call0_v1 : FVec Ideal S9x64 .bf16) (ix2 k ch) := by
  obtain ⟨-, -, -, -, -, e20, e21, -⟩ := idx_facts1 t
  show V c main_call0_v1 (((cfg1.win 2).blk t).view.emb (ix2 k ch)) = V c main_call0_v1 (ix2 k ch)
  refine congrArg _ (funext fun d => Fin.ext ?_)
  match d with
  | ⟨0, _⟩ => show win1_2.index t (0 : Fin 2) * 9 + 1 * k.val = k.val; rw [e20]; omega
  | ⟨1, _⟩ => show win1_2.index t (1 : Fin 2) * 64 + 1 * ch.val = ch.val; rw [e21]; omega

/-- The gamma block is the gamma array. -/
theorem gBlk_apply (c : Dev nD) (t : Fin cfg1.N) (ch : Fin 64) :
    (iblk1 V c 3 t : FVec Ideal S1x64 .f32) (ix2 0 ch) = (V c main_call0_v2 : FVec Ideal S1x64 .f32) (ix2 0 ch) := by
  obtain ⟨-, -, -, -, -, -, -, e30, e31, -⟩ := idx_facts1 t
  show V c main_call0_v2 (((cfg1.win 3).blk t).view.emb (ix2 0 ch)) = V c main_call0_v2 (ix2 0 ch)
  refine congrArg _ (funext fun d => Fin.ext ?_)
  match d with
  | ⟨0, _⟩ => show win1_3.index t (0 : Fin 2) * 1 + 1 * 0 = 0; rw [e30]
  | ⟨1, _⟩ => show win1_3.index t (1 : Fin 2) * 64 + 1 * ch.val = ch.val; rw [e31]; omega

/-- The beta block is the beta array. -/
theorem bBlk_apply (c : Dev nD) (t : Fin cfg1.N) (ch : Fin 64) :
    (iblk1 V c 4 t : FVec Ideal S1x64 .f32) (ix2 0 ch) = (V c main_call0_v3 : FVec Ideal S1x64 .f32) (ix2 0 ch) := by
  obtain ⟨-, -, -, -, -, -, -, -, -, e40, e41, -⟩ := idx_facts1 t
  show V c main_call0_v3 (((cfg1.win 4).blk t).view.emb (ix2 0 ch)) = V c main_call0_v3 (ix2 0 ch)
  refine congrArg _ (funext fun d => Fin.ext ?_)
  match d with
  | ⟨0, _⟩ => show win1_4.index t (0 : Fin 2) * 1 + 1 * 0 = 0; rw [e40]
  | ⟨1, _⟩ => show win1_4.index t (1 : Fin 2) * 64 + 1 * ch.val = ch.val; rw [e41]; omega

/-- The whole result array the second pass is to leave: the folded form of the layer at every (row, channel). -/
def finalArr (xr : Fin 1048576 → Fin 9 → ℝ) (wr : Fin 9 → Fin 64 → ℝ) (gr br sr qr : Fin 64 → ℝ) : S1048576x64.Idx → EReal :=
  fun i => ((Cert.Spec.foldedFrom xr wr gr br Cert.Consts.eps sr qr ⟨(i 0).val, idx2_lt0 i⟩ ⟨(i 1).val, idx2_lt1 i⟩ : ℝ) : EReal)

/-- Its entry at an index whose coordinates are n and ch. -/
theorem finalArr_of (xr : Fin 1048576 → Fin 9 → ℝ) (wr : Fin 9 → Fin 64 → ℝ) (gr br sr qr : Fin 64 → ℝ)
    (n : Fin 1048576) (ch : Fin 64) (i : S1048576x64.Idx) (h0 : (i 0).val = n.val) (h1 : (i 1).val = ch.val) :
    finalArr xr wr gr br sr qr i = ((Cert.Spec.foldedFrom xr wr gr br Cert.Consts.eps sr qr n ch : ℝ) : EReal) := by
  unfold finalArr
  rw [show (⟨(i 0).val, idx2_lt0 i⟩ : Fin 1048576) = n from Fin.ext h0, show (⟨(i 1).val, idx2_lt1 i⟩ : Fin 64) = ch from Fin.ext h1]

section Blocks
variable (c : Dev nD) (xr : Fin 1048576 → Fin 9 → ℝ) (wr : Fin 9 → Fin 64 → ℝ) (gr br sr qr : Fin 64 → ℝ)
    (hs : ∀ ch : Fin 64, (V c main_call0_v4 : FVec Ideal S2x64 .f32) (ix2 0 ch) = ((sr ch : ℝ) : EReal))
    (hq : ∀ ch : Fin 64, (V c main_call0_v4 : FVec Ideal S2x64 .f32) (ix2 1 ch) = ((qr ch : ℝ) : EReal))
    (hx : ∀ (a : Fin 131072) (r : Fin 8) (k : Fin 9), (V c main_call0_v0 : FVec Ideal S131072x8x9 .f32) (ix3 a r k) = ((xr (Cert.Spec.row a r) k : ℝ) : EReal))
    (hw : ∀ (k : Fin 9) (ch : Fin 64), (V c main_call0_v1 : FVec Ideal S9x64 .bf16) (ix2 k ch) = ((wr k ch : ℝ) : EReal))
    (hg : ∀ ch : Fin 64, (V c main_call0_v2 : FVec Ideal S1x64 .f32) (ix2 0 ch) = ((gr ch : ℝ) : EReal))
    (hb : ∀ ch : Fin 64, (V c main_call0_v3 : FVec Ideal S1x64 .f32) (ix2 0 ch) = ((br ch : ℝ) : EReal))
    (hv : ∀ ch : Fin 64, 0 ≤ Cert.Spec.varFrom sr qr ch)
include hs hq hx hw hg hb hv

/-- Entry y of the block point t computes is the entry of the whole result array that the block's rectangle puts y on:
    row p of block t is the global row 16384 t + p, i.e. row p % 8 of group 2048 t + p / 8. -/
theorem block_entry (t : Fin cfg1.N) (y : S16384x64.Idx) :
    k1_pay1 (F := Ideal) (sumsRow0 (F := Ideal) (iblk1 V c 0 t)) (sumsRow1 (F := Ideal) (iblk1 V c 0 t)) (iblk1 V c 3 t) (iblk1 V c 4 t)
        (iblk1 V c 1 t) (iblk1 V c 2 t) y
      = finalArr xr wr gr br sr qr (((cfg1.win 5).blk t).view.emb y) := by
  obtain ⟨p, ch, rfl⟩ : ∃ (p : Fin 16384) (ch : Fin 64), y = ix2 p ch := ⟨y 0, y 1, eq_ix2 y⟩
  have ht : t.val < 64 := N_1 ▸ t.isLt
  have hpl : p.val < 16384 := p.isLt
  have hpa : p.val / 8 < 2048 := by omega
  have hpr : p.val % 8 < 8 := by omega
  have ha' : 2048 * t.val + p.val / 8 < 131072 := by omega
  obtain ⟨-, -, -, -, -, -, -, -, -, -, -, e50, e51⟩ := idx_facts1 t
  refine (pay_apply (sumsRow0 (F := Ideal) (iblk1 V c 0 t)) (sumsRow1 (F := Ideal) (iblk1 V c 0 t)) (iblk1 V c 3 t) (iblk1 V c 4 t)
      (iblk1 V c 1 t) (iblk1 V c 2 t) p ch ⟨p.val / 8, hpa⟩ ⟨p.val % 8, hpr⟩ (by show p.val = 8 * (p.val / 8) + p.val % 8; omega)
      (sr ch) (qr ch) (gr ch) (br ch) (fun k => xr (Cert.Spec.row ⟨2048 * t.val + p.val / 8, ha'⟩ ⟨p.val % 8, hpr⟩) k) (fun k => wr k ch)
      ?_ ?_ ?_ ?_ ?_ ?_ (hv ch)).trans ?_
  · exact (sumsRow0_apply (iblk1 V c 0 t) ch).trans ((sumsBlk_apply V c t 0 ch).trans (hs ch))
  · exact (sumsRow1_apply (iblk1 V c 0 t) ch).trans ((sumsBlk_apply V c t 1 ch).trans (hq ch))
  · exact (gBlk_apply V c t ch).trans (hg ch)
  · exact (bBlk_apply V c t ch).trans (hb ch)
  · intro k
    exact (xBlk_apply V c t ⟨p.val / 8, hpa⟩ ⟨p.val % 8, hpr⟩ k ⟨2048 * t.val + p.val / 8, ha'⟩ rfl).trans (hx _ _ k)
  · intro k
    exact (wBlk_apply V c t k ch).trans (hw k ch)
  · show ((Cert.Spec.foldedFrom xr wr gr br Cert.Consts.eps sr qr (Cert.Spec.row ⟨2048 * t.val + p.val / 8, ha'⟩ ⟨p.val % 8, hpr⟩) ch : ℝ) : EReal) = _
    refine (finalArr_of xr wr gr br sr qr (Cert.Spec.row ⟨2048 * t.val + p.val / 8, ha'⟩ ⟨p.val % 8, hpr⟩) ch _ ?_ ?_).symm
    · show win1_5.index t (0 : Fin 2) * 16384 + 1 * p.val = 8 * (2048 * t.val + p.val / 8) + p.val % 8
      rw [e50]; omega
    · show win1_5.index t (1 : Fin 2) * 64 + 1 * ch.val = ch.val
      rw [e51]; omega

/-- What point t writes back is block t of the whole result array. -/
theorem flushed_eq (t : Fin cfg1.N) :
    (dat1 V c).flushed 5 t = ((cfg1.win 5).blk t).view.read (Elt Ideal) (finalArr xr wr gr br sr qr) := by
  show (cfg1.win 5).cut (grid1.coords t) ((dat1 V c).after 5 t) = _
  rw [after1_5]
  unfold outAt1
  rw [out1_eq c (grid1.coords t) (ms1_0 t) (hs1_0 t) (ms1_1 t) (hs1_1 t) (ms1_2 t) (hs1_2 t) (ms1_3 t) (hs1_3 t) (ms1_4 t) (hs1_4 t)
    (ms1_5 t) (hs1_5 t) (iblk1 V c 0 t) (iblk1 V c 1 t) (iblk1 V c 2 t) (iblk1 V c 3 t) (iblk1 V c 4 t)]
  funext j
  exact block_entry V c xr wr gr br sr qr hs hq hx hw hg hb hv t j

end Blocks

/-- An index of the result array is in point t's block iff each coordinate is in the block's range on its axis. -/
theorem mem_blk1_5 (t : Fin cfg1.N) (i : S1048576x64.Idx) :
    i ∈ ((cfg1.win 5).blk t).view.set
      ↔ ∀ a : Fin 2, win1_5.index t a * S16384x64.size a ≤ (i a).val ∧ (i a).val < win1_5.index t a * S16384x64.size a + S16384x64.size a := by
  show i ∈ ((View.whole main_v0).slice (win1_5.rect t)).set ↔ _
  rw [View.set_slice_whole, Rect.mem_set_unit]
  exact Iff.rfl

/-- The 64 blocks tile the array: row n lies in the block of point n / 16384. -/
theorem cover1_out (i : S1048576x64.Idx) :
    ∃ t : Fin cfg1.N, (cfg1.win 5).flush t = true ∧ i ∈ ((cfg1.win 5).blk t).view.set := by
  have hN : cfg1.N = 64 := N_1
  have hi0 : (i 0).val < 1048576 := idx2_lt0 i
  have hi1 : (i 1).val < 64 := idx2_lt1 i
  have hlt : (i 0).val / 16384 < cfg1.N := by rw [hN]; omega
  obtain ⟨-, -, -, -, -, -, -, -, -, -, -, e50, e51⟩ := idx_facts1 ⟨(i 0).val / 16384, hlt⟩
  refine ⟨⟨(i 0).val / 16384, hlt⟩, flush1_5 _, ?_⟩
  rw [mem_blk1_5]
  intro a
  match a with
  | ⟨0, _⟩ =>
    show win1_5.index ⟨(i 0).val / 16384, hlt⟩ (0 : Fin 2) * 16384 ≤ (i 0).val
      ∧ (i 0).val < win1_5.index ⟨(i 0).val / 16384, hlt⟩ (0 : Fin 2) * 16384 + 16384
    rw [e50]
    show (i 0).val / 16384 * 16384 ≤ (i 0).val ∧ (i 0).val < (i 0).val / 16384 * 16384 + 16384
    omega
  | ⟨1, _⟩ =>
    show win1_5.index ⟨(i 0).val / 16384, hlt⟩ (1 : Fin 2) * 64 ≤ (i 1).val
      ∧ (i 1).val < win1_5.index ⟨(i 0).val / 16384, hlt⟩ (1 : Fin 2) * 64 + 64
    rw [e51]
    omega

end Apply

open Apply

variable (V : (c : Dev nD) → (b : Ref sig .tc) → Buf (Elt Ideal) ((c : Thread nD τ).loc b))

/-- The result array after the second pass, entry by entry, whenever the sums array, the grouped input, the weights,
    gamma and beta the pass is entered with are real and the variance formed from the sums is nonnegative. -/
theorem apply_final (c : Dev nD) (xr : Fin 1048576 → Fin 9 → ℝ) (wr : Fin 9 → Fin 64 → ℝ) (gr br sr qr : Fin 64 → ℝ)
    (hs : ∀ ch : Fin 64, (V c main_call0_v4 : FVec Ideal S2x64 .f32) (ix2 0 ch) = ((sr ch : ℝ) : EReal))
    (hq : ∀ ch : Fin 64, (V c main_call0_v4 : FVec Ideal S2x64 .f32) (ix2 1 ch) = ((qr ch : ℝ) : EReal))
    (hx : ∀ (a : Fin 131072) (r : Fin 8) (k : Fin 9), (V c main_call0_v0 : FVec Ideal S131072x8x9 .f32) (ix3 a r k) = ((xr (Cert.Spec.row a r) k : ℝ) : EReal))
    (hw : ∀ (k : Fin 9) (ch : Fin 64), (V c main_call0_v1 : FVec Ideal S9x64 .bf16) (ix2 k ch) = ((wr k ch : ℝ) : EReal))
    (hg : ∀ ch : Fin 64, (V c main_call0_v2 : FVec Ideal S1x64 .f32) (ix2 0 ch) = ((gr ch : ℝ) : EReal))
    (hb : ∀ ch : Fin 64, (V c main_call0_v3 : FVec Ideal S1x64 .f32) (ix2 0 ch) = ((br ch : ℝ) : EReal))
    (hv : ∀ ch : Fin 64, 0 ≤ Cert.Spec.varFrom sr qr ch)
    (n : Fin 1048576) (ch : Fin 64) :
    ((dat1 V c).arrAt 5 cfg1.N : FVec Ideal S1048576x64 .f32) (ix2 n ch)
      = ((Cert.Spec.foldedFrom xr wr gr br Cert.Consts.eps sr qr n ch : ℝ) : EReal) := by
  have hfin : (dat1 V c).arrAt 5 cfg1.N = finalArr xr wr gr br sr qr :=
    (dat1 V c).arrAt_eq_of_cover 5 (finalArr xr wr gr br sr qr)
      (fun t _ => flushed_eq V c xr wr gr br sr qr hs hq hx hw hg hb hv t) cover1_out
  exact (congrFun hfin (ix2 n ch)).trans (finalArr_of xr wr gr br sr qr n ch (ix2 n ch) rfl rfl)

end Cert.KernelIdeal.Hand

end
-- ==== Proof.Bridge.lean ====
/-
  The kernel's result, entry by entry, from the launch arrays. The second pass is entered with: the sums array at
  what the first pass's write-back left (the column sums of h and of h·h, by the first pass's value); the grouped
  input and the weights as the first pass was entered with them (it only reads them) — the reshape of x, whose
  entry (a, r, k) is x's entry (8a + r, k), and w itself, a change of float format being the identity —; gamma and
  beta laid out as 1×64 rows. With those the second pass's value is the specification's folded form.
-/
import proofs.«130351_g67611375173654_cont_9to1c4b_816_22_alg».proof.Proof.IdealRun
import proofs.«130351_g67611375173654_cont_9to1c4b_816_22_alg».proof.Proof.KHost
import proofs.«130351_g67611375173654_cont_9to1c4b_816_22_alg».proof.Proof.KStats
import proofs.«130351_g67611375173654_cont_9to1c4b_816_22_alg».proof.Proof.KApply
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## What the second pass is entered with -/

/-- The sums array: what the first pass's write-back left. -/
theorem V2_v4 (c : Dev nD) : V2 m ρ c main_call0_v4 = (dat0 (V1 m ρ) c).arrAt 2 cfg0.N := W2_arr m ρ c 2
/-- The grouped input: as the first pass was entered with it (an input window's array is left as found). -/
theorem V2_v0 (c : Dev nD) : V2 m ρ c main_call0_v0 = V1 m ρ c main_call0_v0 :=
  (W2_arr m ρ c 0).trans (((dat0 (V1 m ρ) c).arrAt_in 0 rfl _).trans (A_eq0 (V1 m ρ) c 0))
/-- The weights: likewise. -/
theorem V2_v1 (c : Dev nD) : V2 m ρ c main_call0_v1 = V1 m ρ c main_call0_v1 :=
  (W2_arr m ρ c 1).trans (((dat0 (V1 m ρ) c).arrAt_in 1 rfl _).trans (A_eq0 (V1 m ρ) c 1))
/-- Gamma's row and beta's row are no array of the first pass: untouched by it. -/
theorem V2_v2 (c : Dev nD) : V2 m ρ c main_call0_v2 = V1 m ρ c main_call0_v2 := W2_of_ne m ρ c main_call0_v2 (by decide)
theorem V2_v3 (c : Dev nD) : V2 m ρ c main_call0_v3 = V1 m ρ c main_call0_v3 := W2_of_ne m ρ c main_call0_v3 (by decide)

/-! ## The result array at an index -/

/-- The kernel's result array at (n, c) is the specification's folded form of the launch arrays, whenever those are real. -/
theorem kernel_out_apply (c : Dev nD) (xr : Fin 1048576 → Fin 9 → ℝ) (wr : Fin 9 → Fin 64 → ℝ) (gr br : Fin 64 → ℝ)
    (hx : ∀ n k, (m ((c : Thread nD τ).loc main_arg0) : FVec Ideal S1048576x9 .f32) (ix2 n k) = ((xr n k : ℝ) : EReal))
    (hw : ∀ k ch, (m ((c : Thread nD τ).loc main_arg1) : FVec Ideal S9x64 .f32) (ix2 k ch) = ((wr k ch : ℝ) : EReal))
    (hg : ∀ ch, (m ((c : Thread nD τ).loc main_arg2) : FVec Ideal S64 .f32) (ix1 ch) = ((gr ch : ℝ) : EReal))
    (hb : ∀ ch, (m ((c : Thread nD τ).loc main_arg3) : FVec Ideal S64 .f32) (ix1 ch) = ((br ch : ℝ) : EReal))
    (n : Fin 1048576) (ch : Fin 64) :
    ((dat1 (V2 m ρ) c).arrAt 5 cfg1.N : FVec Ideal S1048576x64 .f32) (ix2 n ch)
      = ((Cert.Spec.outFolded xr wr gr br Cert.Consts.eps n ch : ℝ) : EReal) := by
  have hx1 : ∀ (a : Fin 131072) (r : Fin 8) (k : Fin 9),
      (V1 m ρ c main_call0_v0 : FVec Ideal S131072x8x9 .f32) (ix3 a r k) = ((xr (Cert.Spec.row a r) k : ℝ) : EReal) :=
    fun a r k => (V1_v0_apply m ρ c a r k).trans (hx _ _)
  have hw1 : ∀ (k : Fin 9) (ch : Fin 64),
      (V1 m ρ c main_call0_v1 : FVec Ideal S9x64 .bf16) (ix2 k ch) = ((wr k ch : ℝ) : EReal) :=
    fun k ch => (V1_v1_apply m ρ c k ch).trans (hw _ _)
  have hst := fun ch => stats_final (V1 m ρ) c xr wr hx1 hw1 ch
  rw [← Cert.Spec.foldedFrom_col]
  refine apply_final (V2 m ρ) c xr wr gr br (Cert.Spec.colSum xr wr) (Cert.Spec.colSq xr wr) ?_ ?_ ?_ ?_ ?_ ?_ ?_ n ch
  · intro ch; rw [V2_v4]; exact (hst ch).1
  · intro ch; rw [V2_v4]; exact (hst ch).2
  · intro a r k; rw [V2_v0]; exact hx1 a r k
  · intro k ch; rw [V2_v1]; exact hw1 k ch
  · intro ch; rw [V2_v2]; exact (V1_v2_apply m ρ c ch).trans (hg ch)
  · intro ch; rw [V2_v3]; exact (V1_v3_apply m ρ c ch).trans (hb ch)
  · intro ch; rw [Cert.Spec.varFrom_col, Cert.Spec.varMoments_eq_varCentered]; exact Cert.Spec.varCentered_nonneg xr wr ch

end Cert.KernelIdeal.Hand

end
-- ==== Proof.RefTerm.lean ====
/-
  The reference computation as one closed expression of its four argument arrays.

  With h = x · w (rows n, channels c) the layer is
      out n c = max ( (h n c - mean c) * rsqrt (var c + eps) * gamma c + beta c , 0 ),
      mean c  = (sum over n of h n c) / 2^20,
      var c   = (sum over n of (h n c - mean c)^2) / (2^20 - 0)      when 2^20 - 0 > 0, and NaN otherwise,
  where the "0" is the integer count of degrees of freedom removed (none), converted to a float before it is
  subtracted from the row count.  Each definition below is one stage of that expression, kept in the order and
  with the broadcasts in which the computation states it, so that the expression can later be read entry by entry.
-/
import proofs.«130351_g67611375173654_cont_9to1c4b_816_22_alg».proof.ReferenceIdeal
import proofs.«130351_g67611375173654_cont_9to1c4b_816_22_alg».proof.Proof.Gen.ReferenceIdeal

noncomputable section

namespace Cert.ReferenceIdeal.Hand

open Idealize.ShloMosaic Cert.ReferenceIdeal Cert.ReferenceIdeal.Gen

variable {F : FTy → Type} [FloatOps F]

/-- The linear layer h = x · w: row n of x against column c of w. -/
def hmat (x : FVec F S1048576x9 .f32) (w : FVec F S9x64 .f32) : FVec F S1048576x64 .f32 :=
  Host.dotGeneral dot_S1048576x9_S9x64_S1048576x64_1_0_0_1_n_n none x w

/-- The column sums: entry c is the sum over all rows n of h n c, started from zero. -/
def colSums (h : FVec F S1048576x64 .f32) : FVec F S64 .f32 :=
  Host.reduceAdd h (constant S_ .f32 0x00000000#32) reducesTo_S1048576x64_S64_d0 h_S_

/-- The batch mean: the column sums divided by the row count 2^20, the count spread over the 64 channels. -/
def meanOf (h : FVec F S1048576x64 .f32) : FVec F S64 .f32 :=
  Host.divf (colSums h) (broadcastInDim S64 ![] bcast_S_S64 (constant S_ .f32 0x49800000#32))

/-- The same mean as the variance computes it for itself: the column sums laid out as one row of 64 and divided by
    the row count 2^20 laid out the same way. -/
def meanRow (h : FVec F S1048576x64 .f32) : FVec F S1x64 .f32 :=
  Host.divf (broadcastInDim S1x64 ![1] bcast_S64_S1x64_1 (colSums h))
    (broadcastInDim S1x64 ![] bcast_S_S1x64 (constant S_ .f32 0x49800000#32))

/-- The centred values h n c - mean c, the row of means repeated down every row. -/
def centred (h : FVec F S1048576x64 .f32) : FVec F S1048576x64 .f32 :=
  subf h (broadcastInDim S1048576x64 ![0, 1] bcast_S1x64_S1048576x64_0_1 (meanRow h))

/-- The column sums of the squared centred values, started from zero. -/
def sqSums (h : FVec F S1048576x64 .f32) : FVec F S64 .f32 :=
  Host.reduceAdd (mulf (centred h) (centred h)) (constant S_ .f32 0x00000000#32) reducesTo_S1048576x64_S64_d0 h_S_

/-- The divisor of the variance: the row count 2^20 less the number of degrees of freedom removed, which is the
    integer 0 converted to a float. -/
def dofs : FVec F S_ .f32 :=
  subf (constant S_ .f32 0x49800000#32) (sitofp .f32 (constantI S_ 32 0#32))

/-- The quotient (sum of squared centred values) / divisor, the divisor spread over the 64 channels. -/
def varRaw (h : FVec F S1048576x64 .f32) : FVec F S64 .f32 :=
  Host.divf (sqSums h) (broadcastInDim S64 ![] bcast_S_S64 dofs)

/-- Whether the divisor is (strictly, as an ordered comparison) positive. -/
def dofsPos : IVec S_ 1 :=
  cmpf .ogt (dofs (F := F)) (constant S_ .f32 0x00000000#32)

/-- The variance: the quotient where the divisor is positive, and the quiet NaN spread over the channels otherwise. -/
def varOf (h : FVec F S1048576x64 .f32) : FVec F S64 .f32 :=
  select (broadcastInDim S64 ![] bcast_S_S64 (dofsPos (F := F))) (varRaw h)
    (broadcastInDim S64 ![] bcast_S_S64 (constant S_ .f32 0x7FC00000#32))

/-- A per-channel vector repeated down every row: first laid out as one row of 64, then that row repeated 2^20 times. -/
def rowsOf (v : FVec F S64 .f32) : FVec F S1048576x64 .f32 :=
  broadcastInDim S1048576x64 ![0, 1] bcast_S1x64_S1048576x64_0_1 (broadcastInDim S1x64 ![1] bcast_S64_S1x64_1 v)

/-- The inverse standard deviation rsqrt (var c + eps), eps the float nearest 1e-3 spread over the channels. -/
def invStdOf (h : FVec F S1048576x64 .f32) : FVec F S64 .f32 :=
  Host.rsqrt (addf (varOf h) (broadcastInDim S64 ![] bcast_S_S64 (constant S_ .f32 0x3A83126F#32)))

/-- The normalised and affinely mapped values ((h - mean) * invStd) * gamma + beta, before the clamp. -/
def affineOf (h : FVec F S1048576x64 .f32) (g b : FVec F S64 .f32) : FVec F S1048576x64 .f32 :=
  addf (mulf (mulf (subf h (rowsOf (meanOf h))) (rowsOf (invStdOf h))) (rowsOf g)) (rowsOf b)

/-- The layer's output: the entrywise maximum of the affine values and zero. -/
def refOut (x : FVec F S1048576x9 .f32) (w : FVec F S9x64 .f32) (g b : FVec F S64 .f32) : FVec F S1048576x64 .f32 :=
  maximumf (affineOf (hmat x w) g b) (broadcastInDim S1048576x64 ![] bcast_S_S1048576x64 (constant S_ .f32 0x00000000#32))

end Cert.ReferenceIdeal.Hand

end
-- ==== Proof.RefRun.lean ====
/-
  The reference computation run step by step, and what its last buffer holds at the end.

  The computation is a straight line: each step reads some buffers and writes one, and no buffer is written twice.
  Two of its stages are stated as named sub-computations (the variance, which itself names the choice between a
  quotient and NaN, and the clamp at zero); evaluating one is running its steps in place, each on a buffer of its
  own.  Written out that way the line has 48 steps.  Running them in order from any starting memory, the buffer a
  step writes holds that step's function of the buffers it read; substituting backwards from the last step to the
  four arguments gives the closed expression `refOut` of the argument arrays, and no step writes an argument.
-/
import proofs.«130351_g67611375173654_cont_9to1c4b_816_22_alg».proof.Proof.RefTerm
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- The whole computation as one straight line of 48 steps: the seven steps up to the batch mean, then the
    variance's nineteen steps and the three of its choice between the quotient and NaN written out in place over
    the buffers that one evaluation of them owns, then the sixteen steps of the normalisation and the affine map,
    then the three of the clamp at zero. -/
abbrev ops : List (HloOp τ sig (Elt F)) :=
  [ binary main_arg0 main_arg1 main_v0 ((fun l r => Host.dotGeneral dot_S1048576x9_S9x64_S1048576x64_1_0_0_1_n_n none l r) : (⟨S1048576x9, .f32⟩ : BufTy).Contents (Elt F) → (⟨S9x64, .f32⟩ : BufTy).Contents (Elt F) → (⟨S1048576x64, .f32⟩ : BufTy).Contents (Elt F)),
    nullary main_cst (constant S_ .f32 0x00000000#32),
    binary main_v0 main_cst main_v1 ((fun x v => Host.reduceAdd x v reducesTo_S1048576x64_S64_d0 h_S_) : (⟨S1048576x64, .f32⟩ : BufTy).Contents (Elt F) → (⟨S_, .f32⟩ : BufTy).Contents (Elt F) → (⟨S64, .f32⟩ : BufTy).Contents (Elt F)),
    nullary main_cst_0 (constant S_ .f32 0x49800000#32),
    unary main_cst_0 main_v2 (broadcastInDim S64 ![] bcast_S_S64 : (⟨S_, .f32⟩ : BufTy).Contents (Elt F) → (⟨S64, .f32⟩ : BufTy).Contents (Elt F)),
    binary main_v1 main_v2 main_v3 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v0) main_call0.cst main_call0.v0 (fun x v => Host.reduceAdd x v reducesTo_S1048576x64_S64_d0 h_S_),
    TRef.unary main_call0.v0 main_call0.v1 (broadcastInDim S1x64 ![1] bcast_S64_S1x64_1),
    TRef.nullary main_call0.cst_0 (constant S_ .f32 0x49800000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S1048576x64 ![0, 1] bcast_S1x64_S1048576x64_0_1),
    TRef.binary (.of main_v0) main_call0.v4 main_call0.v5 subf,
    TRef.binary main_call0.v5 main_call0.v5 main_call0.v6 mulf,
    TRef.unary (.of main_c) main_call0.v7 (sitofp .f32),
    TRef.nullary main_call0.cst_1 (constant S_ .f32 0x49800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1048576x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v3 main_v5 (broadcastInDim S1x64 ![1] bcast_S64_S1x64_1 : (⟨S64, .f32⟩ : BufTy).Contents (Elt F) → (⟨S1x64, .f32⟩ : BufTy).Contents (Elt F)),
    unary main_v5 main_v6 (broadcastInDim S1048576x64 ![0, 1] bcast_S1x64_S1048576x64_0_1 : (⟨S1x64, .f32⟩ : BufTy).Contents (Elt F) → (⟨S1048576x64, .f32⟩ : BufTy).Contents (Elt F)),
    binary main_v0 main_v6 main_v7 (subf : (⟨S1048576x64, .f32⟩ : BufTy).Contents (Elt F) → (⟨S1048576x64, .f32⟩ : BufTy).Contents (Elt F) → (⟨S1048576x64, .f32⟩ : BufTy).Contents (Elt F)),
    nullary main_cst_1 (constant S_ .f32 0x3A83126F#32),
    unary main_cst_1 main_v8 (broadcastInDim S64 ![] bcast_S_S64 : (⟨S_, .f32⟩ : BufTy).Contents (Elt F) → (⟨S64, .f32⟩ : BufTy).Contents (Elt F)),
    binary main_v4 main_v8 main_v9 (addf : (⟨S64, .f32⟩ : BufTy).Contents (Elt F) → (⟨S64, .f32⟩ : BufTy).Contents (Elt F) → (⟨S64, .f32⟩ : BufTy).Contents (Elt F)),
    unary main_v9 main_v10 (Host.rsqrt : (⟨S64, .f32⟩ : BufTy).Contents (Elt F) → (⟨S64, .f32⟩ : BufTy).Contents (Elt F)),
    unary main_v10 main_v11 (broadcastInDim S1x64 ![1] bcast_S64_S1x64_1 : (⟨S64, .f32⟩ : BufTy).Contents (Elt F) → (⟨S1x64, .f32⟩ : BufTy).Contents (Elt F)),
    unary main_v11 main_v12 (broadcastInDim S1048576x64 ![0, 1] bcast_S1x64_S1048576x64_0_1 : (⟨S1x64, .f32⟩ : BufTy).Contents (Elt F) → (⟨S1048576x64, .f32⟩ : BufTy).Contents (Elt F)),
    binary main_v7 main_v12 main_v13 (mulf : (⟨S1048576x64, .f32⟩ : BufTy).Contents (Elt F) → (⟨S1048576x64, .f32⟩ : BufTy).Contents (Elt F) → (⟨S1048576x64, .f32⟩ : BufTy).Contents (Elt F)),
    unary main_arg2 main_v14 (broadcastInDim S1x64 ![1] bcast_S64_S1x64_1 : (⟨S64, .f32⟩ : BufTy).Contents (Elt F) → (⟨S1x64, .f32⟩ : BufTy).Contents (Elt F)),
    unary main_v14 main_v15 (broadcastInDim S1048576x64 ![0, 1] bcast_S1x64_S1048576x64_0_1 : (⟨S1x64, .f32⟩ : BufTy).Contents (Elt F) → (⟨S1048576x64, .f32⟩ : BufTy).Contents (Elt F)),
    binary main_v13 main_v15 main_v16 (mulf : (⟨S1048576x64, .f32⟩ : BufTy).Contents (Elt F) → (⟨S1048576x64, .f32⟩ : BufTy).Contents (Elt F) → (⟨S1048576x64, .f32⟩ : BufTy).Contents (Elt F)),
    unary main_arg3 main_v17 (broadcastInDim S1x64 ![1] bcast_S64_S1x64_1 : (⟨S64, .f32⟩ : BufTy).Contents (Elt F) → (⟨S1x64, .f32⟩ : BufTy).Contents (Elt F)),
    unary main_v17 main_v18 (broadcastInDim S1048576x64 ![0, 1] bcast_S1x64_S1048576x64_0_1 : (⟨S1x64, .f32⟩ : BufTy).Contents (Elt F) → (⟨S1048576x64, .f32⟩ : BufTy).Contents (Elt F)),
    binary main_v16 main_v18 main_v19 (addf : (⟨S1048576x64, .f32⟩ : BufTy).Contents (Elt F) → (⟨S1048576x64, .f32⟩ : BufTy).Contents (Elt F) → (⟨S1048576x64, .f32⟩ : BufTy).Contents (Elt F)),
    TRef.nullary main_call1.cst (constant S_ .f32 0x00000000#32),
    TRef.unary main_call1.cst main_call1.v0 (broadcastInDim S1048576x64 ![] bcast_S_S1048576x64),
    TRef.binary (.of main_v19) main_call1.v0 main_call1.v1 maximumf ]

-- forty-eight sequenced steps re-associated: the rewriting recurses once per step
set_option maxRecDepth 2048 in
/-- The program is that straight line: evaluating a named sub-computation is substituting its body, and a sequence
    of sequences is one sequence (associativity of sequencing, and a finished empty step dropped). -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every step touches buffers of the one processor only. -/
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

/-- After the 48 steps the last buffer holds the closed expression of the four arguments: each step's buffer holds
    its function of the buffers it reads, and substituting these one into the next, from the last step back to the
    arguments, is that expression stage by stage. -/
theorem out_eq (V : Valuation τ sig (Elt F)) :
    after ops V (main_v20 : DevRef τ sig)
      = refOut (V (main_arg0 : DevRef τ sig)) (V (main_arg1 : DevRef τ sig)) (V (main_arg2 : DevRef τ sig))
          (V (main_arg3 : DevRef τ sig)) := by
  after_results_simp
  rfl

/-- No step writes an argument's buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp

/-- From any memory with zero counters every weakly fair execution of the computation terminates; the result
    buffer then holds the closed expression of the four argument arrays as they were at the start, and the four
    argument arrays are unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v20) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v20).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.Hand

end
-- ==== Proof.RefValue.lean ====
/-
  The reference computation read entry by entry.

  Every argument array holds real numbers: x n k, w k c, gamma c, beta c.  Each stage of the reference's closed
  expression is then, at every index, (the inclusion into the extended reals of) the real number the
  specification names for it:

      h n c        = sum over k of x n k * w k c                         (nine real products, added)
      colSums c    = 0 + sum over n of h n c                             (a finite sum of reals is real)
      mean c       = colSums c / 2^20  = colSums c * 2^(-20)
      sqSums c     = 0 + sum over n of (h n c - mean c)^2
      divisor      = 2^20 - 0 = 2^20 > 0, so the variance is the quotient sqSums c / 2^20 and never the NaN branch
      invStd c     = rsqrt (var c + eps), an honest real because var c >= 0 and eps > 0
      out n c      = max ((h n c - mean c) * invStd c * gamma c + beta c, 0).

  The sums over the 2^20 rows are never expanded: they stay sums over an index type, and only the inclusion
  of the reals is moved across them.
-/
import proofs.«130351_g67611375173654_cont_9to1c4b_816_22_alg».proof.Proof.RefTerm
import proofs.«130351_g67611375173654_cont_9to1c4b_816_22_alg».proof.Proof.Spec
import proofs.«130351_g67611375173654_cont_9to1c4b_816_22_alg».proof.Proof.Consts
import proofs.«130351_g67611375173654_cont_9to1c4b_816_22_alg».proof.Proof.LibERealSums
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen
open scoped BigOperators

/-! ## The linear layer at an entry

The product's two operand indices at result entry (n, c) and contraction position k are (n, k) and (k, c):
one statement per operand axis. -/

theorem lhs_hmat_0 (i : S1048576x64.Idx) (q : dot_S1048576x9_S9x64_S1048576x64_1_0_0_1_n_n.contr.Idx) :
    (dot_S1048576x9_S9x64_S1048576x64_1_0_0_1_n_n.lhsIdx i q 0).val = (i 0).val := by
  unfold DotDims.lhsIdx
  rw [dif_neg (show ¬(0 : Fin S1048576x9.rank) ∈ dot_S1048576x9_S9x64_S1048576x64_1_0_0_1_n_n.lhsBatch by decide),
    dif_pos (show (0 : Fin S1048576x9.rank) ∈ dot_S1048576x9_S9x64_S1048576x64_1_0_0_1_n_n.lhsNonContracting by decide)]
  rfl

theorem lhs_hmat_1 (i : S1048576x64.Idx) (q : dot_S1048576x9_S9x64_S1048576x64_1_0_0_1_n_n.contr.Idx) :
    (dot_S1048576x9_S9x64_S1048576x64_1_0_0_1_n_n.lhsIdx i q 1).val = (q ⟨0, by decide⟩).val :=
  dot_S1048576x9_S9x64_S1048576x64_1_0_0_1_n_n.lhsIdx_val_of_single rfl i q

theorem rhs_hmat_0 (i : S1048576x64.Idx) (q : dot_S1048576x9_S9x64_S1048576x64_1_0_0_1_n_n.contr.Idx) :
    (dot_S1048576x9_S9x64_S1048576x64_1_0_0_1_n_n.rhsIdx i q 0).val = (q ⟨0, by decide⟩).val :=
  dot_S1048576x9_S9x64_S1048576x64_1_0_0_1_n_n.rhsIdx_val_of_single rfl i q

theorem rhs_hmat_1 (i : S1048576x64.Idx) (q : dot_S1048576x9_S9x64_S1048576x64_1_0_0_1_n_n.contr.Idx) :
    (dot_S1048576x9_S9x64_S1048576x64_1_0_0_1_n_n.rhsIdx i q 1).val = (i 1).val := by
  unfold DotDims.rhsIdx
  rw [dif_neg (show ¬(1 : Fin S9x64.rank) ∈ dot_S1048576x9_S9x64_S1048576x64_1_0_0_1_n_n.rhsBatch by decide),
    dif_pos (show (1 : Fin S9x64.rank) ∈ dot_S1048576x9_S9x64_S1048576x64_1_0_0_1_n_n.rhsNonContracting by decide)]
  rfl

/-- Entry (n, c) of the linear layer is the real number sum over k of x n k * w k c. -/
theorem hmat_apply
    (x : FVec Ideal S1048576x9 .f32) (w : FVec Ideal S9x64 .f32)
    (xr : Fin 1048576 → Fin 9 → ℝ) (wr : Fin 9 → Fin 64 → ℝ)
    (hx : ∀ n k, x (ix2 n k) = ((xr n k : ℝ) : EReal)) (hw : ∀ k c, w (ix2 k c) = ((wr k c : ℝ) : EReal))
    (n : Fin 1048576) (c : Fin 64) :
    hmat (F := Ideal) x w (ix2 n c) = ((Cert.Spec.lin xr wr n c : ℝ) : EReal) := by
  unfold hmat
  simp only [Host.dotGeneral]
  rw [Ideal.dotGeneral_apply,
    ← Equiv.sum_comp (contrEquiv1 dot_S1048576x9_S9x64_S1048576x64_1_0_0_1_n_n 9 rfl rfl).symm]
  unfold Cert.Spec.lin
  rw [Cert.ERealSums.coe_finset_sum]
  refine Finset.sum_congr rfl fun k _ => ?_
  have hk := contrEquiv1_symm_val dot_S1048576x9_S9x64_S1048576x64_1_0_0_1_n_n 9 rfl rfl k
  have el : dot_S1048576x9_S9x64_S1048576x64_1_0_0_1_n_n.lhsIdx (ix2 n c)
      ((contrEquiv1 dot_S1048576x9_S9x64_S1048576x64_1_0_0_1_n_n 9 rfl rfl).symm k) = ix2 n k :=
    funext fun a => Fin.ext (by
      match a with
      | ⟨0, _⟩ => exact lhs_hmat_0 _ _
      | ⟨1, _⟩ => exact (lhs_hmat_1 _ _).trans hk)
  have er : dot_S1048576x9_S9x64_S1048576x64_1_0_0_1_n_n.rhsIdx (ix2 n c)
      ((contrEquiv1 dot_S1048576x9_S9x64_S1048576x64_1_0_0_1_n_n 9 rfl rfl).symm k) = ix2 k c :=
    funext fun a => Fin.ext (by
      match a with
      | ⟨0, _⟩ => exact (rhs_hmat_0 _ _).trans hk
      | ⟨1, _⟩ => exact rhs_hmat_1 _ _)
  rw [el, er, hx, hw, EReal.coe_mul]

/-! ## The broadcasts at an entry

A scalar spread over any shape reads the scalar; a vector of 64 laid out as one row reads the vector; a row of
64 repeated down 2^20 rows reads the row. -/

theorem scalarTo64_apply {α : Type} (s : S_.Idx → α) (c : Fin 64) :
    broadcastInDim S64 ![] bcast_S_S64 s (ix1 c) = s ix0 :=
  broadcastInDim_scalar_apply bcast_S_S64 s (ix1 c)

theorem scalarToRow_apply {α : Type} (s : S_.Idx → α) (c : Fin 64) :
    broadcastInDim S1x64 ![] bcast_S_S1x64 s (ix2 0 c) = s ix0 :=
  broadcastInDim_scalar_apply bcast_S_S1x64 s (ix2 0 c)

theorem scalarToAll_apply {α : Type} (s : S_.Idx → α) (n : Fin 1048576) (c : Fin 64) :
    broadcastInDim S1048576x64 ![] bcast_S_S1048576x64 s (ix2 n c) = s ix0 :=
  broadcastInDim_scalar_apply bcast_S_S1048576x64 s (ix2 n c)

theorem vecToRow_apply {α : Type} (v : S64.Idx → α) (c : Fin 64) :
    broadcastInDim S1x64 ![1] bcast_S64_S1x64_1 v (ix2 0 c) = v (ix1 c) := by
  unfold broadcastInDim
  exact congrArg v (funext fun a => Fin.ext (by match a with | ⟨0, _⟩ => rfl))

theorem rowToAll_apply {α : Type} (r : S1x64.Idx → α) (n : Fin 1048576) (c : Fin 64) :
    broadcastInDim S1048576x64 ![0, 1] bcast_S1x64_S1048576x64_0_1 r (ix2 n c) = r (ix2 0 c) := by
  unfold broadcastInDim
  exact congrArg r (funext fun a => Fin.ext (by match a with | ⟨0, _⟩ => rfl | ⟨1, _⟩ => rfl))

/-- A per-channel vector repeated down every row reads, at (n, c), the vector at c. -/
theorem rowsOf_apply (v : FVec Ideal S64 .f32) (n : Fin 1048576) (c : Fin 64) :
    rowsOf (F := Ideal) v (ix2 n c) = v (ix1 c) := by
  unfold rowsOf
  rw [rowToAll_apply, vecToRow_apply]

/-! ## A column sum at an entry

The sum down the 2^20 rows of a matrix of reals, started from zero, is the real column sum.  The sum stays a
sum over the row index; only the inclusion of the reals crosses it. -/

theorem columnSum_apply (v : FVec Ideal S1048576x64 .f32) (f : Fin 1048576 → Fin 64 → ℝ)
    (hv : ∀ n c, v (ix2 n c) = ((f n c : ℝ) : EReal)) (c : Fin 64) :
    Host.reduceAdd (F := Ideal) v (constant (F := Ideal) S_ .f32 0x00000000#32) reducesTo_S1048576x64_S64_d0 h_S_ (ix1 c)
      = ((∑ n : Fin 1048576, f n c : ℝ) : EReal) := by
  rw [hostReduceAdd_apply, constant_apply, Cert.Consts.ofBits_zero,
    Ideal.hostReduceAdd_single reducesTo_S1048576x64_S64_d0 (by decide), zero_add,
    Cert.ERealSums.coe_finset_sum]
  refine Finset.sum_congr rfl fun k _ => ?_
  exact (congrArg v (funext fun a => Fin.ext (by match a with | ⟨0, _⟩ => rfl | ⟨1, _⟩ => rfl))).trans (hv k c)

/-! ## The statistics at an entry

Throughout, h is a matrix whose entry (n, c) is the real number lin n c of the specification. -/

section Stages

variable (h : FVec Ideal S1048576x64 .f32) (xr : Fin 1048576 → Fin 9 → ℝ) (wr : Fin 9 → Fin 64 → ℝ)
  (hh : ∀ n c, h (ix2 n c) = ((Cert.Spec.lin xr wr n c : ℝ) : EReal))

include hh

/-- The column sums are the real column sums. -/
theorem colSums_apply (c : Fin 64) :
    colSums (F := Ideal) h (ix1 c) = ((Cert.Spec.colSum xr wr c : ℝ) : EReal) := by
  unfold colSums Cert.Spec.colSum
  exact columnSum_apply h (Cert.Spec.lin xr wr) hh c

/-- The batch mean: the column sum divided by 2^20, that is multiplied by 2^(-20). -/
theorem meanOf_apply (c : Fin 64) :
    meanOf (F := Ideal) h (ix1 c) = ((Cert.Spec.mean xr wr c : ℝ) : EReal) := by
  unfold meanOf
  rw [hostDivf_apply, colSums_apply h xr wr hh, scalarTo64_apply, constant_apply, Cert.Consts.ofBits_n,
    Cert.Consts.div_n]
  rfl

/-- The same mean, laid out as one row. -/
theorem meanRow_apply (c : Fin 64) :
    meanRow (F := Ideal) h (ix2 0 c) = ((Cert.Spec.mean xr wr c : ℝ) : EReal) := by
  unfold meanRow
  rw [hostDivf_apply, vecToRow_apply, colSums_apply h xr wr hh, scalarToRow_apply, constant_apply,
    Cert.Consts.ofBits_n, Cert.Consts.div_n]
  rfl

/-- The centred value at (n, c) is the real difference lin n c - mean c. -/
theorem centred_apply (n : Fin 1048576) (c : Fin 64) :
    centred (F := Ideal) h (ix2 n c) = ((Cert.Spec.lin xr wr n c - Cert.Spec.mean xr wr c : ℝ) : EReal) := by
  unfold centred
  rw [subf_apply, rowToAll_apply, meanRow_apply h xr wr hh, hh, EReal.coe_sub]

/-- The column sums of the squared centred values are the real sums of squares. -/
theorem sqSums_apply (c : Fin 64) :
    sqSums (F := Ideal) h (ix1 c)
      = ((∑ n : Fin 1048576, (Cert.Spec.lin xr wr n c - Cert.Spec.mean xr wr c)
            * (Cert.Spec.lin xr wr n c - Cert.Spec.mean xr wr c) : ℝ) : EReal) := by
  unfold sqSums
  refine columnSum_apply _ (fun n c => (Cert.Spec.lin xr wr n c - Cert.Spec.mean xr wr c)
      * (Cert.Spec.lin xr wr n c - Cert.Spec.mean xr wr c)) (fun n c => ?_) c
  rw [mulf_apply, centred_apply h xr wr hh, EReal.coe_mul]

omit hh in
/-- The divisor of the variance is 2^20 - 0 = 2^20. -/
theorem dofs_apply : dofs (F := Ideal) ix0 = ((1048576 : ℝ) : EReal) := by
  unfold dofs
  rw [subf_apply, constant_apply, Cert.Consts.ofBits_n, sitofp_apply]
  show ((1048576 : ℝ) : EReal) - (((((constantI S_ 32 0#32) ix0).toInt : ℤ) : ℝ) : EReal) = _
  have hz : ((constantI S_ 32 0#32) ix0).toInt = 0 := rfl
  rw [hz, Int.cast_zero, EReal.coe_zero, sub_zero]

omit hh in
/-- The divisor is positive, so the comparison's bit is 1. -/
theorem dofsPos_apply : dofsPos (F := Ideal) ix0 = 1#1 := by
  unfold dofsPos
  rw [cmpf_apply, Ideal.cmpf_def, dofs_apply, constant_apply, Cert.Consts.ofBits_zero]
  have hpos : (0 : EReal) < ((1048576 : ℝ) : EReal) := by
    rw [← EReal.coe_zero]; exact EReal.coe_lt_coe_iff.mpr (by norm_num)
  show BitVec.ofBool (decide ((0 : EReal) < ((1048576 : ℝ) : EReal))) = 1#1
  rw [decide_eq_true hpos]
  rfl

/-- The quotient of the sum of squares by the divisor is the variance as a centred second moment. -/
theorem varRaw_apply (c : Fin 64) :
    varRaw (F := Ideal) h (ix1 c) = ((Cert.Spec.varCentered xr wr c : ℝ) : EReal) := by
  unfold varRaw
  rw [hostDivf_apply, sqSums_apply h xr wr hh, scalarTo64_apply, dofs_apply, Cert.Consts.div_n]
  rfl

/-- The select keeps the quotient, the divisor being positive. -/
theorem varOf_apply (c : Fin 64) :
    varOf (F := Ideal) h (ix1 c) = ((Cert.Spec.varCentered xr wr c : ℝ) : EReal) := by
  unfold varOf
  rw [select_apply, scalarTo64_apply, dofsPos_apply, select_one, varRaw_apply h xr wr hh]

/-- The inverse standard deviation: the variance is nonnegative and eps positive, so it is a real number. -/
theorem invStdOf_apply (c : Fin 64) :
    invStdOf (F := Ideal) h (ix1 c)
      = ((Cert.Spec.invStd Cert.Consts.eps (Cert.Spec.varCentered xr wr c) : ℝ) : EReal) := by
  unfold invStdOf Host.rsqrt
  rw [Ideal.hostUnary_rsqrt_def, addf_apply, varOf_apply h xr wr hh, scalarTo64_apply, constant_apply,
    Cert.Consts.ofBits_eps, ← EReal.coe_add,
    Cert.Consts.rsqrt_coe_of_nonneg _ (Cert.Spec.varCentered_nonneg xr wr c)]

end Stages

/-! ## The output at an entry -/

/-- The affine values before the clamp: ((lin - mean) * invStd) * gamma + beta, all real. -/
theorem affineOf_apply (h : FVec Ideal S1048576x64 .f32) (g b : FVec Ideal S64 .f32)
    (xr : Fin 1048576 → Fin 9 → ℝ) (wr : Fin 9 → Fin 64 → ℝ) (gr br : Fin 64 → ℝ)
    (hh : ∀ n c, h (ix2 n c) = ((Cert.Spec.lin xr wr n c : ℝ) : EReal))
    (hg : ∀ c, g (ix1 c) = ((gr c : ℝ) : EReal)) (hb : ∀ c, b (ix1 c) = ((br c : ℝ) : EReal))
    (n : Fin 1048576) (c : Fin 64) :
    affineOf (F := Ideal) h g b (ix2 n c)
      = (((Cert.Spec.lin xr wr n c - Cert.Spec.mean xr wr c)
            * Cert.Spec.invStd Cert.Consts.eps (Cert.Spec.varCentered xr wr c) * gr c + br c : ℝ) : EReal) := by
  unfold affineOf
  rw [addf_apply, mulf_apply, mulf_apply, subf_apply, rowsOf_apply, rowsOf_apply, rowsOf_apply, rowsOf_apply,
    hh, meanOf_apply h xr wr hh, invStdOf_apply h xr wr hh, hg, hb,
    ← EReal.coe_sub, ← EReal.coe_mul, ← EReal.coe_mul, ← EReal.coe_add]

/-- Entry (n, c) of the reference's result is the specification's output, a real number. -/
theorem refOut_apply
    (x : FVec Ideal S1048576x9 .f32) (w : FVec Ideal S9x64 .f32) (g b : FVec Ideal S64 .f32)
    (xr : Fin 1048576 → Fin 9 → ℝ) (wr : Fin 9 → Fin 64 → ℝ) (gr br : Fin 64 → ℝ)
    (hx : ∀ n k, x (ix2 n k) = ((xr n k : ℝ) : EReal)) (hw : ∀ k c, w (ix2 k c) = ((wr k c : ℝ) : EReal))
    (hg : ∀ c, g (ix1 c) = ((gr c : ℝ) : EReal)) (hb : ∀ c, b (ix1 c) = ((br c : ℝ) : EReal))
    (n : Fin 1048576) (c : Fin 64) :
    refOut (F := Ideal) x w g b (ix2 n c) = ((Cert.Spec.outCentered xr wr gr br Cert.Consts.eps n c : ℝ) : EReal) := by
  unfold refOut
  rw [maximumf_apply, affineOf_apply (hmat (F := Ideal) x w) g b xr wr gr br (hmat_apply x w xr wr hx hw) hg hb,
    scalarToAll_apply, constant_apply, Cert.Consts.ofBits_zero, Cert.Consts.max_coe_zero]
  rfl

end Cert.ReferenceIdeal.Hand

end
-- ==== Proof.Finite.lean ====
import proofs.«130351_g67611375173654_cont_9to1c4b_816_22_alg».proof.Pre_finite_inputs
import proofs.«130351_g67611375173654_cont_9to1c4b_816_22_alg».proof.Proof.Gen.Pre_finite_inputs
import Idealize.ShloMosaic.Lib.ReduceAll
import Idealize.ShloMosaic.PureOps.Ideal
import Idealize.ShloMosaic.Lib.ValueIdx

/-!
# Finiteness of the inputs

The precondition says, of each of the four input arrays, that `|a| < +∞` holds at every entry, and
takes the conjunction of the four statements. Over the extended reals `|a| = max a (-a)`, and
`max a (-a) < +∞` excludes both `a = +∞` and `a = -∞` (where `-a = +∞`), so every entry is a real
number. This file turns the precondition into that statement, entry by entry.
-/

namespace Cert.Finite

open Idealize.ShloMosaic

/-- An extended real whose absolute value `max x (-x)` lies strictly below `+∞` is a real number:
    at `x = -∞` the maximum is `-x = +∞`, at `x = +∞` it is `x` itself. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the precondition: the comparison `|x| < c` answering "true", where the constant `c`
    is the pattern of exponent all ones and mantissa zero, which denotes `+∞`. -/
theorem real_of_cmp (x : Ideal .f32)
    (h : FloatOps.cmpf (F := Ideal) .olt (FloatOps.hostAbsf x)
      (FloatOps.ofBits (F := Ideal) .f32 0x7F800000#32) = 1#1) :
    ∃ r : ℝ, x = (r : EReal) := by
  refine real_of_abs_lt_top x ?_
  have e : Ideal.ofBits .f32 0x7F800000#32 = (⊤ : EReal) := by simp [Ideal.ofBits, Ideal.ieee]
  have h' : Ideal.cmp .olt (max x (-x)) (Ideal.ofBits .f32 0x7F800000#32) = 1#1 := h
  rw [e] at h'
  by_cases hlt : max x (-x) < ⊤
  · exact hlt
  · -- were the strict inequality false, the comparison would have answered 0, not 1
    exfalso
    simp [Ideal.cmp, hlt] at h'

/-- The shape of a scalar has exactly one index (the empty tuple of coordinates). -/
instance : Subsingleton Cert.Pre_finite_inputs.S_.Idx := ⟨fun a b => funext fun d => d.elim0⟩

/-- The precondition gives a real value at every entry of every input: the conjunction of four
    "all entries satisfy `|a| < +∞`" splits into its four conjuncts, a conjunction over all entries of
    an array that is true is true at each entry, and each entry's inequality makes it a real. -/
theorem real_of_pre [Cert.Pre_finite_inputs.Facts]
    (x : FVec Ideal Cert.Pre_finite_inputs.S1048576x9 .f32) (w : FVec Ideal Cert.Pre_finite_inputs.S9x64 .f32)
    (g b : FVec Ideal Cert.Pre_finite_inputs.S64 .f32)
    (h : Cert.Pre_finite_inputs.fn (F := Ideal) x w g b = (fun _ => 1#1)) :
    (∀ i, ∃ r : ℝ, x i = (r : EReal)) ∧ (∀ i, ∃ r : ℝ, w i = (r : EReal)) ∧
      (∀ i, ∃ r : ℝ, g i = (r : EReal)) ∧ (∀ i, ∃ r : ℝ, b i = (r : EReal)) := by
  have h0 := congrFun h ValueIdx.ix0
  dsimp only [Cert.Pre_finite_inputs.fn, Cert.Pre_finite_inputs.fn_part1] at h0
  -- ((all x ∧ all w) ∧ all g) ∧ all b
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_cmp (x i) (Host.reduce_andi_all _ _ _ _ _ h1 i)
  · exact real_of_cmp (w i) (Host.reduce_andi_all _ _ _ _ _ h2 i)
  · exact real_of_cmp (g i) (Host.reduce_andi_all _ _ _ _ _ h3 i)
  · exact real_of_cmp (b i) (Host.reduce_andi_all _ _ _ _ _ h4 i)

end Cert.Finite
-- ==== Proof.lean ====
/-
  The certificate's five claims for one batch-normalised linear layer (2^20 rows, 9 inputs, 64 channels) computed
  in two passes — per-channel sums of h = x·w and of h·h, then relu(h·scale + bias) with the statistics folded into
  scale and bias — against the plain formulation relu((h − mean)·rsqrt(var + ε)·γ + β).

  Frames: each program runs to the end, faults nowhere and leaves its four argument arrays as launched; for the
  two-pass program this is its run over the two passes at either float instance, for the reference its run with the
  result dropped. The idealization changed no operation, so there is nothing to preserve. The value claim: at the
  exact instance, under finite inputs, every entry of both results is a real number; the two-pass program's entry
  is the folded form of the specification and the reference's entry the centred form, and these agree because
  E[h²] − E[h]² is the mean of the centred squares.
-/
import proofs.«130351_g67611375173654_cont_9to1c4b_816_22_alg».proof.Defs
import proofs.«130351_g67611375173654_cont_9to1c4b_816_22_alg».proof.Proof.Gen.Kernel
import proofs.«130351_g67611375173654_cont_9to1c4b_816_22_alg».proof.Proof.Gen.KernelIdeal
import proofs.«130351_g67611375173654_cont_9to1c4b_816_22_alg».proof.Proof.Gen.ReferenceIdeal
import proofs.«130351_g67611375173654_cont_9to1c4b_816_22_alg».proof.Proof.Gen.Pre_finite_inputs
import proofs.«130351_g67611375173654_cont_9to1c4b_816_22_alg».proof.Proof.BitsRun
import proofs.«130351_g67611375173654_cont_9to1c4b_816_22_alg».proof.Proof.IdealRun
import proofs.«130351_g67611375173654_cont_9to1c4b_816_22_alg».proof.Proof.Bridge
import proofs.«130351_g67611375173654_cont_9to1c4b_816_22_alg».proof.Proof.RefRun
import proofs.«130351_g67611375173654_cont_9to1c4b_816_22_alg».proof.Proof.RefValue
import proofs.«130351_g67611375173654_cont_9to1c4b_816_22_alg».proof.Proof.Finite
import proofs.«130351_g67611375173654_cont_9to1c4b_816_22_alg».proof.Proof.Spec
import Idealize.ShloMosaic.Lib.ValueIdx
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both programs end, from memories agreeing on the arguments, with the same result array: entry (n, c) of the
    two-pass program's is the folded form, of the reference's the centred form, of the same real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Hand.dat1 (Cert.KernelIdeal.Hand.V2 m ρ) c).arrAt 5 Cert.KernelIdeal.cfg1.N,
    Cert.KernelIdeal.Hand.run_named (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  obtain ⟨hx, hw, hg, hb⟩ := Cert.Finite.real_of_pre _ _ _ _ (hpre c)
  choose xr hxr using hx
  choose wr hwr using hw
  choose gr hgr using hg
  choose br hbr using hb
  funext i
  obtain ⟨n, ch, rfl⟩ : ∃ (n : Fin 1048576) (ch : Fin 64), i = ix2 n ch := ⟨i 0, i 1, eq_ix2 i⟩
  refine (Cert.ReferenceIdeal.Hand.refOut_apply _ _ _ _ (fun n k => xr (ix2 n k)) (fun k c => wr (ix2 k c))
    (fun c => gr (ix1 c)) (fun c => br (ix1 c)) (fun _ _ => hxr _) (fun _ _ => hwr _) (fun _ => hgr _) (fun _ => hbr _) n ch).trans ?_
  refine Eq.trans ?_ (Cert.KernelIdeal.Hand.kernel_out_apply m ρ c (fun n k => xr (ix2 n k)) (fun k c => wr (ix2 k c))
    (fun c => gr (ix1 c)) (fun c => br (ix1 c)) (fun _ _ => hxr _) (fun _ _ => hwr _) (fun _ => hgr _) (fun _ => hbr _) n ch).symm
  rw [Cert.Spec.outFolded_eq_outCentered]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
